-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S64x2 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x64 .f32) (main_arg12 : FVec F S64 .f32) (main_arg13 : FVec F S64x2 .f32) (main_arg14 : FVec F S2 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S64x2 .f32) (main_arg14 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x64 .f32) (main_arg12 : FVec F S64 .f32) (main_arg13 : FVec F S64x2 .f32) (main_arg14 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x64 : Shape := ⟨2, ![5000, 64]⟩
abbrev S5000x128 : Shape := ⟨2, ![5000, 128]⟩
abbrev S850000x128 : Shape := ⟨2, ![850000, 128]⟩
abbrev S1x128 : Shape := ⟨2, ![1, 128]⟩
abbrev S50000x1 : Shape := ⟨2, ![50000, 1]⟩
abbrev S16 : Shape := ⟨1, ![16]⟩
abbrev S1x16 : Shape := ⟨2, ![1, 16]⟩
abbrev S50000x16 : Shape := ⟨2, ![50000, 16]⟩
abbrev S16x128 : Shape := ⟨2, ![16, 128]⟩
abbrev S5000x16 : Shape := ⟨2, ![5000, 16]⟩
abbrev S16x1 : Shape := ⟨2, ![16, 1]⟩
abbrev S16x2 : Shape := ⟨2, ![16, 2]⟩
abbrev S16x64 : Shape := ⟨2, ![16, 64]⟩
abbrev S1x64 : Shape := ⟨2, ![1, 64]⟩
abbrev S1x2 : Shape := ⟨2, ![1, 2]⟩

abbrev nBuf : Space → Nat
  | .hbm => 143
  | .vmem => 34
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S64x2, .f32⟩
  | 14 => ⟨S2, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S50000x128, .f32⟩
  | 73 => ⟨S_, .i32⟩
  | 74 => ⟨S850000, .i32⟩
  | 75 => ⟨S850000, .i1⟩
  | 76 => ⟨S_, .i32⟩
  | 77 => ⟨S850000, .i32⟩
  | 78 => ⟨S850000, .i32⟩
  | 79 => ⟨S850000, .i32⟩
  | 80 => ⟨S850000x1, .i32⟩
  | 81 => ⟨S850000x128, .f32⟩
  | 82 => ⟨S850000x1, .f32⟩
  | 83 => ⟨S850000x128, .f32⟩
  | 84 => ⟨S850000x128, .f32⟩
  | 85 => ⟨S_, .f32⟩
  | 86 => ⟨S50000x128, .f32⟩
  | 87 => ⟨S850000x1, .i32⟩
  | 88 => ⟨S50000x128, .f32⟩
  | 89 => ⟨S50000x128, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000x128, .f32⟩
  | 99 => ⟨S850000x1, .f32⟩
  | 100 => ⟨S850000x128, .f32⟩
  | 101 => ⟨S850000x128, .f32⟩
  | 102 => ⟨S_, .f32⟩
  | 103 => ⟨S50000x128, .f32⟩
  | 104 => ⟨S850000x1, .i32⟩
  | 105 => ⟨S50000x128, .f32⟩
  | 106 => ⟨S50000x128, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000x128, .f32⟩
  | 116 => ⟨S850000x1, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128, .f32⟩
  | 124 => ⟨S50000x128, .f32⟩
  | 125 => ⟨S50000x128, .f32⟩
  | 126 => ⟨S50000x1, .i32⟩
  | 127 => ⟨S16, .i32⟩
  | _ => ⟨S50000x64, .f32⟩

abbrev hbmTy0_1 (i : Nat) : BufTy := match i % 128 with
  | 0 => ⟨S1x16, .i32⟩
  | 1 => ⟨S50000x16, .i32⟩
  | 2 => ⟨S50000x16, .i32⟩
  | 3 => ⟨S50000x16, .i1⟩
  | 4 => ⟨S50000x16, .f32⟩
  | 5 => ⟨S_, .f32⟩
  | 6 => ⟨S16, .f32⟩
  | 7 => ⟨S16x128, .f32⟩
  | 8 => ⟨S_, .f32⟩
  | 9 => ⟨S16, .f32⟩
  | 10 => ⟨S16, .f32⟩
  | 11 => ⟨S16x1, .f32⟩
  | 12 => ⟨S16x128, .f32⟩
  | 13 => ⟨S16x128, .f32⟩
  | 14 => ⟨S16x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x16, .f32⟩
  | .local _ .vmem, ⟨24, _⟩ => ⟨S5000x16, .f32⟩
  | .local _ .vmem, ⟨25, _⟩ => ⟨S5000x128, .f32⟩
  | .local _ .vmem, ⟨26, _⟩ => ⟨S5000x128, .f32⟩
  | .local _ .vmem, ⟨27, _⟩ => ⟨S16x128, .f32⟩
  | .local _ .vmem, ⟨28, _⟩ => ⟨S16x128, .f32⟩
  | .local _ .vmem, ⟨29, _⟩ => ⟨S128x64, .f32⟩
  | .local _ .vmem, ⟨30, _⟩ => ⟨S64, .f32⟩
  | .local _ .vmem, ⟨31, _⟩ => ⟨S64x2, .f32⟩
  | .local _ .vmem, ⟨32, _⟩ => ⟨S2, .f32⟩
  | .local _ .vmem, ⟨33, _⟩ => ⟨S16x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_12 : Ref sig .tc := ⟨.hbm, 90, rfl⟩
abbrev main_v59 : Ref sig .tc := ⟨.hbm, 91, rfl⟩
abbrev main_v60 : Ref sig .tc := ⟨.hbm, 92, rfl⟩
abbrev main_c_13 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_15 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_18 : Ref sig .tc := ⟨.hbm, 133, rfl⟩
abbrev main_v96 : Ref sig .tc := ⟨.hbm, 134, rfl⟩
abbrev main_v97 : Ref sig .tc := ⟨.hbm, 135, rfl⟩
abbrev main_cst_19 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc5_stg0_0 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg4_0 : Ref sig .tc := ⟨.vmem, 32, rfl⟩
abbrev cc5_stg5_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem1_1 : DmaSem sig := 26
abbrev cc4_sem2_0 : DmaSem sig := 27
abbrev cc5_sem0_0 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem5_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S16x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S16x2 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S16_S1x16_1 : S16.BroadcastsInDim S1x16 (![1] : Fin 1 → Fin S1x16.rank)
  bcast_S50000x1_S50000x16_0_1 : S50000x1.BroadcastsInDim S50000x16 (![0, 1] : Fin 2 → Fin S50000x16.rank)
  bcast_S1x16_S50000x16_0_1 : S1x16.BroadcastsInDim S50000x16 (![0, 1] : Fin 2 → Fin S50000x16.rank)
  reducesTo_S50000x16_S16_d0 : S50000x16.ReducesTo [0] S16
  h_S_ : 0 < S_.numel
  inb_S16x128_S16x128_0_0 : ∀ a, (![0, 0] : Fin 2 → Nat) a + S16x128.size a ≤ S16x128.size a
  h_S16x128 : 0 < S16x128.numel
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  shapeCasts_S16x128_S16x128 : S16x128.ShapeCasts S16x128
  bcast_S_S16 : S_.BroadcastsInDim S16 (![] : Fin 0 → Fin S16.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S16x64 : S1x64.Broadcasts S16x64
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S16x2 : S1x2.Broadcasts S16x2
  inb_S16x2_S16x2_0_0 : ∀ a, (![0, 0] : Fin 2 → Nat) a + S16x2.size a ≤ S16x2.size a
  h_S16x2 : 0 < S16x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x128_S5000x128_1_0_0_1_n_n_wf : DotDims.WF S5000x128 S128x128 S5000x128 [1] [0] [0] [1] [] []
  dot_S5000x16_S5000x128_S16x128_0_0_1_1_n_n_wf : DotDims.WF S5000x16 S5000x128 S16x128 [0] [0] [1] [1] [] []
  dot_S16x128_S128x64_S16x64_1_0_0_1_n_n_wf : DotDims.WF S16x128 S128x64 S16x64 [1] [0] [0] [1] [] []
  dot_S16x64_S64x2_S16x2_1_0_0_1_n_n_wf : DotDims.WF S16x64 S64x2 S16x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x16.size a ≤ S50000x16.size a
  hwx4_0 : ∀ i : grid4.Coords, EltTy.bits .f32 = 32 ∨ (Rect.block (s := S50000x16) S5000x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x128.size a ≤ S16x128.size a
  hwx4_2 : ∀ i : grid4.Coords, EltTy.bits .f32 = 32 ∨ (Rect.block (s := S16x128) S16x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S16x128.size a ≤ S16x128.size a
  hwx5_0 : ∀ i : grid5.Coords, EltTy.bits .f32 = 32 ∨ (Rect.block (s := S16x128) S16x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64.size a ≤ S64.size a
  hwx5_2 : ∀ i : grid5.Coords, EltTy.bits .f32 = 32 ∨ (Rect.block (s := S64) S64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x2.size a ≤ S64x2.size a
  hwx5_3 : ∀ i : grid5.Coords, EltTy.bits .f32 = 32 ∨ (Rect.block (s := S64x2) S64x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2.size a ≤ S2.size a
  hwx5_4 : ∀ i : grid5.Coords, EltTy.bits .f32 = 32 ∨ (Rect.block (s := S2) S2.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S16x2.size a ≤ S16x2.size a
  hwx5_5 : ∀ i : grid5.Coords, EltTy.bits .f32 = 32 ∨ (Rect.block (s := S16x2) S16x2.size (cc5_transform_5 i) (hinb5_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x16_S5000x128_S16x128_0_0_1_1_n_n : DotDims S5000x16 S5000x128 S16x128 where
  lhsContracting := [0]
  rhsContracting := [0]
  lhsNonContracting := [1]
  rhsNonContracting := [1]
  lhsBatch := []
  rhsBatch := []
  wf := dot_S5000x16_S5000x128_S16x128_0_0_1_1_n_n_wf
def dot_S16x128_S128x64_S16x64_1_0_0_1_n_n : DotDims S16x128 S128x64 S16x64 where
  lhsContracting := [1]
  rhsContracting := [0]
  lhsNonContracting := [0]
  rhsNonContracting := [1]
  lhsBatch := []
  rhsBatch := []
  wf := dot_S16x128_S128x64_S16x64_1_0_0_1_n_n_wf
def dot_S16x64_S64x2_S16x2_1_0_0_1_n_n : DotDims S16x64 S64x2 S16x2 where
  lhsContracting := [1]
  rhsContracting := [0]
  lhsNonContracting := [0]
  rhsNonContracting := [1]
  lhsBatch := []
  rhsBatch := []
  wf := dot_S16x64_S64x2_S16x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v95) S5000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v88) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v97) S16x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v102) S16x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg12) S64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg13) S64x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg14) S2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v103) S16x2.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S16 : Shape := ⟨1, ![16]⟩
abbrev S50000x1 : Shape := ⟨2, ![50000, 1]⟩
abbrev S16x128 : Shape := ⟨2, ![16, 128]⟩
abbrev S16x1 : Shape := ⟨2, ![16, 1]⟩
abbrev S16x64 : Shape := ⟨2, ![16, 64]⟩
abbrev S1x64 : Shape := ⟨2, ![1, 64]⟩
abbrev S16x2 : Shape := ⟨2, ![16, 2]⟩
abbrev S1x2 : Shape := ⟨2, ![1, 2]⟩

abbrev nBuf : Space → Nat
  | .hbm => 171
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128x64, .f32⟩
  | 12 => ⟨S64, .f32⟩
  | 13 => ⟨S64x2, .f32⟩
  | 14 => ⟨S2, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S50000x128, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x128, .f32⟩
  | 65 => ⟨S850000x1, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x1, .f32⟩
  | 89 => ⟨S850000x128, .f32⟩
  | 90 => ⟨S850000x128, .f32⟩
  | 91 => ⟨S_, .f32⟩
  | 92 => ⟨S50000x128, .f32⟩
  | 93 => ⟨S850000x1, .i32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .f32⟩
  | 101 => ⟨S50000x128, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x128, .f32⟩
  | 111 => ⟨S850000x1, .f32⟩
  | 112 => ⟨S850000x128, .f32⟩
  | 113 => ⟨S850000x128, .f32⟩
  | 114 => ⟨S_, .f32⟩
  | 115 => ⟨S50000x128, .f32⟩
  | 116 => ⟨S850000x1, .i32⟩
  | 117 => ⟨S50000x128, .f32⟩
  | 118 => ⟨S1x128, .f32⟩
  | 119 => ⟨S50000x128, .f32⟩
  | 120 => ⟨S50000x128, .f32⟩
  | 121 => ⟨S_, .f32⟩
  | 122 => ⟨S50000x128, .f32⟩
  | 123 => ⟨S50000x128, .f32⟩
  | 124 => ⟨S50000x128, .f32⟩
  | 125 => ⟨S_, .i32⟩
  | 126 => ⟨S850000, .i32⟩
  | 127 => ⟨S850000, .i1⟩
  | _ => ⟨S50000x64, .f32⟩

abbrev hbmTy0_1 (i : Nat) : BufTy := match i % 128 with
  | 0 => ⟨S_, .i32⟩
  | 1 => ⟨S850000, .i32⟩
  | 2 => ⟨S850000, .i32⟩
  | 3 => ⟨S850000, .i32⟩
  | 4 => ⟨S850000x1, .i32⟩
  | 5 => ⟨S850000x128, .f32⟩
  | 6 => ⟨S850000x1, .f32⟩
  | 7 => ⟨S850000x128, .f32⟩
  | 8 => ⟨S850000x128, .f32⟩
  | 9 => ⟨S_, .f32⟩
  | 10 => ⟨S50000x128, .f32⟩
  | 11 => ⟨S850000x1, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000, .f32⟩
  | 18 => ⟨S_, .f32⟩
  | 19 => ⟨S16, .f32⟩
  | 20 => ⟨S50000x1, .i32⟩
  | 21 => ⟨S16, .f32⟩
  | 22 => ⟨S_, .f32⟩
  | 23 => ⟨S16x128, .f32⟩
  | 24 => ⟨S50000x1, .i32⟩
  | 25 => ⟨S16x128, .f32⟩
  | 26 => ⟨S_, .f32⟩
  | 27 => ⟨S16, .f32⟩
  | 28 => ⟨S16, .f32⟩
  | 29 => ⟨S16x1, .f32⟩
  | 30 => ⟨S16x128, .f32⟩
  | 31 => ⟨S16x128, .f32⟩
  | 32 => ⟨S16x64, .f32⟩
  | 33 => ⟨S1x64, .f32⟩
  | 34 => ⟨S16x64, .f32⟩
  | 35 => ⟨S16x64, .f32⟩
  | 36 => ⟨S_, .f32⟩
  | 37 => ⟨S16x64, .f32⟩
  | 38 => ⟨S16x64, .f32⟩
  | 39 => ⟨S16x2, .f32⟩
  | 40 => ⟨S1x2, .f32⟩
  | 41 => ⟨S16x2, .f32⟩
  | 42 => ⟨S16x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_11 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_call2_cst : Ref sig .tc := ⟨.hbm, 98, rfl⟩
abbrev main_call2_v0 : Ref sig .tc := ⟨.hbm, 99, rfl⟩
abbrev main_v65 : Ref sig .tc := ⟨.hbm, 100, rfl⟩
abbrev main_v66 : Ref sig .tc := ⟨.hbm, 101, rfl⟩
abbrev main_c_12 : Ref sig .tc := ⟨.hbm, 102, rfl⟩
abbrev main_v67 : Ref sig .tc := ⟨.hbm, 103, rfl⟩
abbrev main_v68 : Ref sig .tc := ⟨.hbm, 104, rfl⟩
abbrev main_c_13 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_call3_cst : Ref sig .tc := ⟨.hbm, 121, rfl⟩
abbrev main_call3_v0 : Ref sig .tc := ⟨.hbm, 122, rfl⟩
abbrev main_v83 : Ref sig .tc := ⟨.hbm, 123, rfl⟩
abbrev main_v84 : Ref sig .tc := ⟨.hbm, 124, rfl⟩
abbrev main_c_15 : Ref sig .tc := ⟨.hbm, 125, rfl⟩
abbrev main_v85 : Ref sig .tc := ⟨.hbm, 126, rfl⟩
abbrev main_v86 : Ref sig .tc := ⟨.hbm, 127, rfl⟩
abbrev main_c_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_cst_17 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_18 : Ref sig .tc := ⟨.hbm, 144, rfl⟩
abbrev main_v101 : Ref sig .tc := ⟨.hbm, 145, rfl⟩
abbrev main_cst_19 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_20 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_21 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call4_cst : Ref sig .tc := ⟨.hbm, 164, rfl⟩
abbrev main_call4_v0 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S16 : S_.BroadcastsInDim S16 (![] : Fin 0 → Fin S16.rank)
  bcast_S50000_S50000x1_0 : S50000.BroadcastsInDim S50000x1 (![0] : Fin 1 → Fin S50000x1.rank)
  bcast_S_S16x128 : S_.BroadcastsInDim S16x128 (![] : Fin 0 → Fin S16x128.rank)
  bcast_S16_S16x1_0 : S16.BroadcastsInDim S16x1 (![0] : Fin 1 → Fin S16x1.rank)
  bcast_S16x1_S16x128_0_1 : S16x1.BroadcastsInDim S16x128 (![0, 1] : Fin 2 → Fin S16x128.rank)
  bcast_S64_S1x64_1 : S64.BroadcastsInDim S1x64 (![1] : Fin 1 → Fin S1x64.rank)
  bcast_S1x64_S16x64_0_1 : S1x64.BroadcastsInDim S16x64 (![0, 1] : Fin 2 → Fin S16x64.rank)
  bcast_S_S16x64 : S_.BroadcastsInDim S16x64 (![] : Fin 0 → Fin S16x64.rank)
  bcast_S2_S1x2_1 : S2.BroadcastsInDim S1x2 (![1] : Fin 1 → Fin S1x2.rank)
  bcast_S1x2_S16x2_0_1 : S1x2.BroadcastsInDim S16x2 (![0, 1] : Fin 2 → Fin S16x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  scatter_S16_S50000x1_S50000_n_0_0_1_wf : ScatterDims.WF S16 S50000x1 S50000 [] [0] [0] 1
  scatter_S16x128_S50000x1_S50000x128_1_0_0_1_wf : ScatterDims.WF S16x128 S50000x1 S50000x128 [1] [0] [0] 1
  dot_S16x128_S128x64_S16x64_1_0_0_1_n_n_wf : DotDims.WF S16x128 S128x64 S16x64 [1] [0] [0] [1] [] []
  dot_S16x64_S64x2_S16x2_1_0_0_1_n_n_wf : DotDims.WF S16x64 S64x2 S16x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S16_S50000x1_S50000_n_0_0_1 : ScatterDims S16 S50000x1 S50000 where
  updateWindowDims := []
  insertedWindowDims := [0]
  scatterDimsToOperandDims := [0]
  indexVectorDim := 1
  wf := scatter_S16_S50000x1_S50000_n_0_0_1_wf
def scatter_S16x128_S50000x1_S50000x128_1_0_0_1 : ScatterDims S16x128 S50000x1 S50000x128 where
  updateWindowDims := [1]
  insertedWindowDims := [0]
  scatterDimsToOperandDims := [0]
  indexVectorDim := 1
  wf := scatter_S16x128_S50000x1_S50000x128_1_0_0_1_wf
def dot_S16x128_S128x64_S16x64_1_0_0_1_n_n : DotDims S16x128 S128x64 S16x64 where
  lhsContracting := [1]
  rhsContracting := [0]
  lhsNonContracting := [0]
  rhsNonContracting := [1]
  lhsBatch := []
  rhsBatch := []
  wf := dot_S16x128_S128x64_S16x64_1_0_0_1_n_n_wf
def dot_S16x64_S64x2_S16x2_1_0_0_1_n_n : DotDims S16x64 S64x2 S16x2 where
  lhsContracting := [1]
  rhsContracting := [0]
  lhsNonContracting := [0]
  rhsNonContracting := [1]
  lhsBatch := []
  rhsBatch := []
  wf := dot_S16x64_S64x2_S16x2_1_0_0_1_n_n_wf

class Facts : Prop extends Facts₀ where

variable [Facts]
-- ==== Proof.Keep.lean ====
import proofs.«410849_j86998857548340_1_alg».proof.Proof.Gen.KernelIdeal.Frame
import Idealize.ShloMosaic.Lib.StableHlo.Run
import Idealize.ShloMosaic.Lib.ValueIdx
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable {F : FTy → Type} [FloatOps F]
variable (m : (ℓ : Loc nD τ sig) → Buf (Elt F) ℓ) (ρ : Dev nD → PrngReg)

/-! Buffers that no host operation and no region writes between two boundaries hold at the later what they held at
    the earlier: the arguments what the launch memory gave them, the edge lists and the edge weights what the first
    host stretch computed. -/

namespace Keep

/-! ## One host stretch

Each host operation writes one reference, its result. `wrK` lists the results of the stretch `hostOpsK` in order; a
reference outside the list reads after the stretch what it read before. -/

/-- A reference of a list is, as a device buffer, in the image of the list. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The result of the operation at hand is in the list at hand. -/
local macro "inW" : term => `(sub_of_mem (by decide))

abbrev wr0 : List (Ref sig .tc) :=
  [main_v0, main_v1, main_v2, main_v3, main_v4, main_v5, main_v6, main_cst, main_v7, main_cst_0, main_v8, main_v9,
   main_v10, main_cst_1, main_v11, main_v12, main_v13, main_cst_2]
theorem host0 (V : Valuation τ sig (Elt F)) {r : Ref sig .tc} (hr : r ∉ wr0) :
    StableHlo.after hostOps0 V (Proc.devRef .tc r) = V (Proc.devRef .tc r) :=
  StableHlo.after_of_writes_sub hostOps0 V
    ⟨inW, inW, inW, inW, inW, inW, inW, inW, inW, inW, inW, inW, inW, inW, inW, inW, inW, inW⟩ hr

abbrev wr0_1 : List (Ref sig .tc) :=
  [main_call0_v0, main_call0_v1, main_v14]
theorem host0_1 (V : Valuation τ sig (Elt F)) {r : Ref sig .tc} (hr : r ∉ wr0_1) :
    StableHlo.after hostOps0_1 V (Proc.devRef .tc r) = V (Proc.devRef .tc r) :=
  StableHlo.after_of_writes_sub hostOps0_1 V
    ⟨inW, inW, inW⟩ hr

abbrev wr0_2 : List (Ref sig .tc) :=
  [main_c, main_v15, main_v16, main_c_3, main_v17, main_v18, main_v19, main_v20, main_v21, main_c_4, main_v22,
   main_v23, main_c_5, main_v24, main_v25, main_v26, main_v27, main_v28, main_v29]
theorem host0_2 (V : Valuation τ sig (Elt F)) {r : Ref sig .tc} (hr : r ∉ wr0_2) :
    StableHlo.after hostOps0_2 V (Proc.devRef .tc r) = V (Proc.devRef .tc r) :=
  StableHlo.after_of_writes_sub hostOps0_2 V
    ⟨inW, inW, inW, inW, inW, inW, inW, inW, inW, inW, inW, inW, inW, inW, inW, inW, inW, inW, inW⟩ hr

abbrev wr1 : List (Ref sig .tc) :=
  [main_c_6, main_v31, main_v32, main_c_7, main_v33, main_v34, main_v35, main_v36, main_v37, main_v38, main_v39,
   main_v40, main_cst_8, main_v41, main_v42, main_v43]
theorem host1 (V : Valuation τ sig (Elt F)) {r : Ref sig .tc} (hr : r ∉ wr1) :
    StableHlo.after hostOps1 V (Proc.devRef .tc r) = V (Proc.devRef .tc r) :=
  StableHlo.after_of_writes_sub hostOps1 V
    ⟨inW, inW, inW, inW, inW, inW, inW, inW, inW, inW, inW, inW, inW, inW, inW, inW⟩ hr

abbrev wr2 : List (Ref sig .tc) :=
  [main_c_9, main_v45, main_v46, main_c_10, main_v47, main_v48, main_v49, main_v50, main_v51, main_v52, main_v53,
   main_v54, main_cst_11, main_v55, main_v56, main_v57]
theorem host2 (V : Valuation τ sig (Elt F)) {r : Ref sig .tc} (hr : r ∉ wr2) :
    StableHlo.after hostOps2 V (Proc.devRef .tc r) = V (Proc.devRef .tc r) :=
  StableHlo.after_of_writes_sub hostOps2 V
    ⟨inW, inW, inW, inW, inW, inW, inW, inW, inW, inW, inW, inW, inW, inW, inW, inW⟩ hr

abbrev wr3 : List (Ref sig .tc) :=
  [main_c_12, main_v59, main_v60, main_c_13, main_v61, main_v62, main_v63, main_v64, main_v65, main_v66, main_v67,
   main_v68, main_cst_14, main_v69, main_v70, main_v71]
theorem host3 (V : Valuation τ sig (Elt F)) {r : Ref sig .tc} (hr : r ∉ wr3) :
    StableHlo.after hostOps3 V (Proc.devRef .tc r) = V (Proc.devRef .tc r) :=
  StableHlo.after_of_writes_sub hostOps3 V
    ⟨inW, inW, inW, inW, inW, inW, inW, inW, inW, inW, inW, inW, inW, inW, inW, inW⟩ hr

abbrev wr4 : List (Ref sig .tc) :=
  [main_c_15, main_v73, main_v74, main_c_16, main_v75, main_v76, main_v77, main_v78, main_v79, main_v80, main_v81,
   main_v82, main_cst_17, main_v83, main_v84, main_v85, main_v86, main_v87, main_v88, main_v89, main_v90, main_v91,
   main_v92, main_v93, main_v94, main_v95, main_cst_18, main_v96]
theorem host4 (V : Valuation τ sig (Elt F)) {r : Ref sig .tc} (hr : r ∉ wr4) :
    StableHlo.after hostOps4 V (Proc.devRef .tc r) = V (Proc.devRef .tc r) :=
  StableHlo.after_of_writes_sub hostOps4 V
    ⟨inW, inW, inW, inW, inW, inW, inW, inW, inW, inW, inW, inW, inW, inW, inW, inW, inW, inW, inW, inW, inW, inW,
     inW, inW, inW, inW, inW, inW⟩ hr

abbrev wr5 : List (Ref sig .tc) :=
  [main_cst_19, main_v98, main_v99, main_v100, main_v101, main_v102]
theorem host5 (V : Valuation τ sig (Elt F)) {r : Ref sig .tc} (hr : r ∉ wr5) :
    StableHlo.after hostOps5 V (Proc.devRef .tc r) = V (Proc.devRef .tc r) :=
  StableHlo.after_of_writes_sub hostOps5 V
    ⟨inW, inW, inW, inW, inW, inW⟩ hr

/-! ## The walks

`Free3 r`: no operation of the three host stretches before region 0 has `r` as its result. `FreeK r` for K = 4 … 13:
between the boundaries 3 and K no host operation has `r` as its result and no region has `r` among its arrays. Under
these a buffer reads at the boundary K what it read at the boundary 3, and at the boundary 3 what the launch memory
gave. Each is a finite check over references. -/

abbrev Free3 (r : Ref sig .tc) : Prop := r ∉ wr0 ∧ r ∉ wr0_1 ∧ r ∉ wr0_2
abbrev Free4 (r : Ref sig .tc) : Prop := ∀ w, Pipeline.arrRef spec0 w ≠ r
abbrev Free5 (r : Ref sig .tc) : Prop := Free4 r ∧ r ∉ wr1
abbrev Free6 (r : Ref sig .tc) : Prop := Free5 r ∧ ∀ w, Pipeline.arrRef spec1 w ≠ r
abbrev Free7 (r : Ref sig .tc) : Prop := Free6 r ∧ r ∉ wr2
abbrev Free8 (r : Ref sig .tc) : Prop := Free7 r ∧ ∀ w, Pipeline.arrRef spec2 w ≠ r
abbrev Free9 (r : Ref sig .tc) : Prop := Free8 r ∧ r ∉ wr3
abbrev Free10 (r : Ref sig .tc) : Prop := Free9 r ∧ ∀ w, Pipeline.arrRef spec3 w ≠ r
abbrev Free11 (r : Ref sig .tc) : Prop := Free10 r ∧ r ∉ wr4
abbrev Free12 (r : Ref sig .tc) : Prop := Free11 r ∧ ∀ w, Pipeline.arrRef spec4 w ≠ r
abbrev Free13 (r : Ref sig .tc) : Prop := Free12 r ∧ r ∉ wr5

section Walk
variable (c : Dev nD) {r : Ref sig .tc}

/-- Back through the three host stretches before region 0 to the launch memory. -/
theorem W3_launch (h : Free3 r) : W3 m ρ c (Proc.devRef .tc r) = m ((c : Thread nD τ).loc r) :=
  (host0_2 _ h.2.2).trans ((host0_1 _ h.2.1).trans (host0 _ h.1))

/-- Back to the boundary 3, one boundary at a time: across a region none of whose arrays is `r`, across a host stretch
    none of whose results is `r`. -/
theorem W4_W3 (h : Free4 r) : W4 m ρ c (Proc.devRef .tc r) = W3 m ρ c (Proc.devRef .tc r) := W4_of_ne m ρ c r h
theorem W5_W3 (h : Free5 r) : W5 m ρ c (Proc.devRef .tc r) = W3 m ρ c (Proc.devRef .tc r) :=
  (host1 _ h.2).trans (W4_W3 m ρ c h.1)
theorem W6_W3 (h : Free6 r) : W6 m ρ c (Proc.devRef .tc r) = W3 m ρ c (Proc.devRef .tc r) :=
  (W6_of_ne m ρ c r h.2).trans (W5_W3 m ρ c h.1)
theorem W7_W3 (h : Free7 r) : W7 m ρ c (Proc.devRef .tc r) = W3 m ρ c (Proc.devRef .tc r) :=
  (host2 _ h.2).trans (W6_W3 m ρ c h.1)
theorem W8_W3 (h : Free8 r) : W8 m ρ c (Proc.devRef .tc r) = W3 m ρ c (Proc.devRef .tc r) :=
  (W8_of_ne m ρ c r h.2).trans (W7_W3 m ρ c h.1)
theorem W9_W3 (h : Free9 r) : W9 m ρ c (Proc.devRef .tc r) = W3 m ρ c (Proc.devRef .tc r) :=
  (host3 _ h.2).trans (W8_W3 m ρ c h.1)
theorem W10_W3 (h : Free10 r) : W10 m ρ c (Proc.devRef .tc r) = W3 m ρ c (Proc.devRef .tc r) :=
  (W10_of_ne m ρ c r h.2).trans (W9_W3 m ρ c h.1)
theorem W11_W3 (h : Free11 r) : W11 m ρ c (Proc.devRef .tc r) = W3 m ρ c (Proc.devRef .tc r) :=
  (host4 _ h.2).trans (W10_W3 m ρ c h.1)
theorem W12_W3 (h : Free12 r) : W12 m ρ c (Proc.devRef .tc r) = W3 m ρ c (Proc.devRef .tc r) :=
  (W12_of_ne m ρ c r h.2).trans (W11_W3 m ρ c h.1)
theorem W13_W3 (h : Free13 r) : W13 m ρ c (Proc.devRef .tc r) = W3 m ρ c (Proc.devRef .tc r) :=
  (host5 _ h.2).trans (W12_W3 m ρ c h.1)

end Walk

end Keep

open Keep

/-! ## The arguments, at the boundary where a region or a host stretch first reads them -/

theorem W3_arg0 (c : Dev nD) : W3 m ρ c (Proc.devRef .tc main_arg0) = m ((c : Thread nD τ).loc main_arg0) :=
  W3_launch m ρ c (by decide)
theorem W3_arg3 (c : Dev nD) : W3 m ρ c (Proc.devRef .tc main_arg3) = m ((c : Thread nD τ).loc main_arg3) :=
  W3_launch m ρ c (by decide)
theorem W5_arg4 (c : Dev nD) : W5 m ρ c (Proc.devRef .tc main_arg4) = m ((c : Thread nD τ).loc main_arg4) :=
  (W5_W3 m ρ c (by decide)).trans (W3_launch m ρ c (by decide))
theorem W5_arg5 (c : Dev nD) : W5 m ρ c (Proc.devRef .tc main_arg5) = m ((c : Thread nD τ).loc main_arg5) :=
  (W5_W3 m ρ c (by decide)).trans (W3_launch m ρ c (by decide))
theorem W7_arg6 (c : Dev nD) : W7 m ρ c (Proc.devRef .tc main_arg6) = m ((c : Thread nD τ).loc main_arg6) :=
  (W7_W3 m ρ c (by decide)).trans (W3_launch m ρ c (by decide))
theorem W7_arg7 (c : Dev nD) : W7 m ρ c (Proc.devRef .tc main_arg7) = m ((c : Thread nD τ).loc main_arg7) :=
  (W7_W3 m ρ c (by decide)).trans (W3_launch m ρ c (by decide))
theorem W9_arg8 (c : Dev nD) : W9 m ρ c (Proc.devRef .tc main_arg8) = m ((c : Thread nD τ).loc main_arg8) :=
  (W9_W3 m ρ c (by decide)).trans (W3_launch m ρ c (by decide))
theorem W9_arg9 (c : Dev nD) : W9 m ρ c (Proc.devRef .tc main_arg9) = m ((c : Thread nD τ).loc main_arg9) :=
  (W9_W3 m ρ c (by decide)).trans (W3_launch m ρ c (by decide))
theorem W10_arg10 (c : Dev nD) : W10 m ρ c (Proc.devRef .tc main_arg10) = m ((c : Thread nD τ).loc main_arg10) :=
  (W10_W3 m ρ c (by decide)).trans (W3_launch m ρ c (by decide))
theorem W10_arg2 (c : Dev nD) : W10 m ρ c (Proc.devRef .tc main_arg2) = m ((c : Thread nD τ).loc main_arg2) :=
  (W10_W3 m ρ c (by decide)).trans (W3_launch m ρ c (by decide))
theorem W13_arg11 (c : Dev nD) : W13 m ρ c (Proc.devRef .tc main_arg11) = m ((c : Thread nD τ).loc main_arg11) :=
  (W13_W3 m ρ c (by decide)).trans (W3_launch m ρ c (by decide))
theorem W13_arg12 (c : Dev nD) : W13 m ρ c (Proc.devRef .tc main_arg12) = m ((c : Thread nD τ).loc main_arg12) :=
  (W13_W3 m ρ c (by decide)).trans (W3_launch m ρ c (by decide))
theorem W13_arg13 (c : Dev nD) : W13 m ρ c (Proc.devRef .tc main_arg13) = m ((c : Thread nD τ).loc main_arg13) :=
  (W13_W3 m ρ c (by decide)).trans (W3_launch m ρ c (by decide))
theorem W13_arg14 (c : Dev nD) : W13 m ρ c (Proc.devRef .tc main_arg14) = m ((c : Thread nD τ).loc main_arg14) :=
  (W13_W3 m ρ c (by decide)).trans (W3_launch m ρ c (by decide))

/-! ## The edge sources, the edge targets and the edge weights: results of the host stretches before region 0, read
    again by the host stretch before each of the regions 1 … 4 -/

theorem W4_v3 (c : Dev nD) : W4 m ρ c (Proc.devRef .tc main_v3) = W3 m ρ c (Proc.devRef .tc main_v3) :=
  W4_W3 m ρ c (by decide)
theorem W4_v6 (c : Dev nD) : W4 m ρ c (Proc.devRef .tc main_v6) = W3 m ρ c (Proc.devRef .tc main_v6) :=
  W4_W3 m ρ c (by decide)
theorem W4_v29 (c : Dev nD) : W4 m ρ c (Proc.devRef .tc main_v29) = W3 m ρ c (Proc.devRef .tc main_v29) :=
  W4_W3 m ρ c (by decide)
theorem W6_v3 (c : Dev nD) : W6 m ρ c (Proc.devRef .tc main_v3) = W3 m ρ c (Proc.devRef .tc main_v3) :=
  W6_W3 m ρ c (by decide)
theorem W6_v6 (c : Dev nD) : W6 m ρ c (Proc.devRef .tc main_v6) = W3 m ρ c (Proc.devRef .tc main_v6) :=
  W6_W3 m ρ c (by decide)
theorem W6_v29 (c : Dev nD) : W6 m ρ c (Proc.devRef .tc main_v29) = W3 m ρ c (Proc.devRef .tc main_v29) :=
  W6_W3 m ρ c (by decide)
theorem W8_v3 (c : Dev nD) : W8 m ρ c (Proc.devRef .tc main_v3) = W3 m ρ c (Proc.devRef .tc main_v3) :=
  W8_W3 m ρ c (by decide)
theorem W8_v6 (c : Dev nD) : W8 m ρ c (Proc.devRef .tc main_v6) = W3 m ρ c (Proc.devRef .tc main_v6) :=
  W8_W3 m ρ c (by decide)
theorem W8_v29 (c : Dev nD) : W8 m ρ c (Proc.devRef .tc main_v29) = W3 m ρ c (Proc.devRef .tc main_v29) :=
  W8_W3 m ρ c (by decide)
theorem W10_v3 (c : Dev nD) : W10 m ρ c (Proc.devRef .tc main_v3) = W3 m ρ c (Proc.devRef .tc main_v3) :=
  W10_W3 m ρ c (by decide)
theorem W10_v6 (c : Dev nD) : W10 m ρ c (Proc.devRef .tc main_v6) = W3 m ρ c (Proc.devRef .tc main_v6) :=
  W10_W3 m ρ c (by decide)
theorem W10_v29 (c : Dev nD) : W10 m ρ c (Proc.devRef .tc main_v29) = W3 m ρ c (Proc.devRef .tc main_v29) :=
  W10_W3 m ρ c (by decide)

/-! ## The node counts: a result of the host stretch before region 4, none of that region's arrays -/

theorem W12_v96 (c : Dev nD) : W12 m ρ c (Proc.devRef .tc main_v96) = W11 m ρ c (Proc.devRef .tc main_v96) :=
  W12_of_ne m ρ c main_v96 (by decide)

end Cert.KernelIdeal.Val

end
-- ==== Proof.Spec.lean ====
/-
  The layers of the graph network as pure functions of whole arrays over the extended reals, index by index.

  A dense layer sends the node features A [50000, d] to A · W; with a bias b and the rectifier before the product it
  sends A to max (A + b, 0) · W. Pooling with a one-hot membership table oh [50000, 16] sends the node features
  h [50000, 128] to ohᵀ · h, the sum of the rows of each graph. The head is two dense layers with a rectifier between.
-/
import Idealize.ShloMosaic.PureOps.Ideal
import Idealize.ShloMosaic.Lib.ValueIdx

noncomputable section

namespace Cert.Spec

open Idealize.ShloMosaic Idealize.ShloMosaic.ValueIdx

/-- x · W for x [50000, 64] and W [64, 128]. -/
def mm (x : FVec Ideal ⟨2, ![50000, 64]⟩ .f32) (W : FVec Ideal ⟨2, ![64, 128]⟩ .f32) : FVec Ideal ⟨2, ![50000, 128]⟩ .f32 :=
  fun i => ∑ k : Fin 64, x (ix2 (⟨(i 0).val, (i 0).isLt⟩ : Fin 50000) k) * W (ix2 k (⟨(i 1).val, (i 1).isLt⟩ : Fin 128))

theorem mm_apply (x : FVec Ideal ⟨2, ![50000, 64]⟩ .f32) (W : FVec Ideal ⟨2, ![64, 128]⟩ .f32) (n : Fin 50000) (j : Fin 128) :
    mm x W (ix2 n j) = ∑ k : Fin 64, x (ix2 n k) * W (ix2 k j) := rfl

/-- max (A + b, 0) · W for A [50000, 128], b [128] and W [128, 128]. -/
def lyr (A : FVec Ideal ⟨2, ![50000, 128]⟩ .f32) (b : FVec Ideal ⟨1, ![128]⟩ .f32) (W : FVec Ideal ⟨2, ![128, 128]⟩ .f32) :
    FVec Ideal ⟨2, ![50000, 128]⟩ .f32 :=
  fun i => ∑ k : Fin 128, max (A (ix2 (⟨(i 0).val, (i 0).isLt⟩ : Fin 50000) k) + b (ix1 k)) 0 * W (ix2 k (⟨(i 1).val, (i 1).isLt⟩ : Fin 128))

theorem lyr_apply (A : FVec Ideal ⟨2, ![50000, 128]⟩ .f32) (b : FVec Ideal ⟨1, ![128]⟩ .f32) (W : FVec Ideal ⟨2, ![128, 128]⟩ .f32)
    (n : Fin 50000) (j : Fin 128) :
    lyr A b W (ix2 n j) = ∑ k : Fin 128, max (A (ix2 n k) + b (ix1 k)) 0 * W (ix2 k j) := rfl

/-- ohᵀ · h for oh [50000, 16] and h [50000, 128]. -/
def pool (oh : FVec Ideal ⟨2, ![50000, 16]⟩ .f32) (h : FVec Ideal ⟨2, ![50000, 128]⟩ .f32) : FVec Ideal ⟨2, ![16, 128]⟩ .f32 :=
  fun i => ∑ n : Fin 50000, oh (ix2 n (⟨(i 0).val, (i 0).isLt⟩ : Fin 16)) * h (ix2 n (⟨(i 1).val, (i 1).isLt⟩ : Fin 128))

theorem pool_apply (oh : FVec Ideal ⟨2, ![50000, 16]⟩ .f32) (h : FVec Ideal ⟨2, ![50000, 128]⟩ .f32) (g : Fin 16) (k : Fin 128) :
    pool oh h (ix2 g k) = ∑ n : Fin 50000, oh (ix2 n g) * h (ix2 n k) := rfl

/-- The head: max (p · U + u, 0) · Y + y for p [16, 128], U [128, 64], u [64], Y [64, 2], y [2]. -/
def head (p : FVec Ideal ⟨2, ![16, 128]⟩ .f32) (U : FVec Ideal ⟨2, ![128, 64]⟩ .f32) (u : FVec Ideal ⟨1, ![64]⟩ .f32)
    (Y : FVec Ideal ⟨2, ![64, 2]⟩ .f32) (y : FVec Ideal ⟨1, ![2]⟩ .f32) : FVec Ideal ⟨2, ![16, 2]⟩ .f32 :=
  fun i => (∑ k : Fin 64, max ((∑ r : Fin 128, p (ix2 (⟨(i 0).val, (i 0).isLt⟩ : Fin 16) r) * U (ix2 r k)) + u (ix1 k)) 0
      * Y (ix2 k (⟨(i 1).val, (i 1).isLt⟩ : Fin 2))) + y (ix1 (⟨(i 1).val, (i 1).isLt⟩ : Fin 2))

theorem head_apply (p : FVec Ideal ⟨2, ![16, 128]⟩ .f32) (U : FVec Ideal ⟨2, ![128, 64]⟩ .f32) (u : FVec Ideal ⟨1, ![64]⟩ .f32)
    (Y : FVec Ideal ⟨2, ![64, 2]⟩ .f32) (y : FVec Ideal ⟨1, ![2]⟩ .f32) (g : Fin 16) (q : Fin 2) :
    head p U u Y y (ix2 g q)
      = (∑ k : Fin 64, max ((∑ r : Fin 128, p (ix2 g r) * U (ix2 r k)) + u (ix1 k)) 0 * Y (ix2 k q)) + y (ix1 q) := rfl

/-- The membership table of the graph ids: 1 where node n belongs to graph g, else 0. -/
def oneHot (b : IVec ⟨1, ![50000]⟩ 32) : FVec Ideal ⟨2, ![50000, 16]⟩ .f32 :=
  fun i => if b (ix1 (⟨(i 0).val, (i 0).isLt⟩ : Fin 50000)) = BitVec.ofNat 32 (i 1).val then (1 : EReal) else 0

theorem oneHot_apply (b : IVec ⟨1, ![50000]⟩ 32) (n : Fin 50000) (g : Fin 16) :
    oneHot b (ix2 n g) = if b (ix1 n) = BitVec.ofNat 32 g.val then (1 : EReal) else 0 := rfl

/-- The number of nodes of each graph: the membership table's column sums. -/
def cnt (b : IVec ⟨1, ![50000]⟩ 32) : FVec Ideal ⟨1, ![16]⟩ .f32 :=
  fun i => ∑ n : Fin 50000, oneHot b (ix2 n (⟨(i 0).val, (i 0).isLt⟩ : Fin 16))

theorem cnt_apply (b : IVec ⟨1, ![50000]⟩ 32) (g : Fin 16) : cnt b (ix1 g) = ∑ n : Fin 50000, oneHot b (ix2 n g) := rfl

end Cert.Spec

end
-- ==== Proof.Reg0.lean ====
import proofs.«410849_j86998857548340_1_alg».proof.Proof.Gen.KernelIdeal.Frame
import proofs.«410849_j86998857548340_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The tile product at an index -/

/-- The row operand of the tile product is read at the output's row. -/
theorem mm0_lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- … and at the contracted index along its columns. -/
theorem mm0_lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- The weight operand is read at the contracted index along its rows … -/
theorem mm0_rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- … and at the output's column. -/
theorem mm0_rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- One tile's product at row r and column j: the narrowing casts are the identity over the extended reals and the
    accumulator starts at zero, so what is left is the sum over the 64 contracted features. -/
theorem pay0_apply (x : FVec Ideal S5000x64 .f32) (w : FVec Ideal S64x128 .f32) (r : Fin 5000) (j : Fin 128) :
    k0_pay1 (F := Ideal) x w (ix2 r j) = ∑ k : Fin 64, x (ix2 r k) * w (ix2 k j) := by
  unfold k0_pay1
  refine (Ideal.matmul_constant_zero_apply dot_S5000x64_S64x128_S5000x128_1_0_0_1_n_n none _ _ (ix2 r j)).trans ?_
  rw [← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 r j) ((ValueIdx.contrEquiv1 dot_S5000x64_S64x128_S5000x128_1_0_0_1_n_n 64 rfl rfl).symm k) = (ix2 r k : S5000x64.Idx) := funext fun a => Fin.ext (by
    match a with
    | ⟨0, _⟩ => exact mm0_lhs_0 _ _
    | ⟨1, _⟩ => exact (mm0_lhs_1 _ _).trans hk)
  have er : dot_S5000x64_S64x128_S5000x128_1_0_0_1_n_n.rhsIdx (ix2 r j) ((ValueIdx.contrEquiv1 dot_S5000x64_S64x128_S5000x128_1_0_0_1_n_n 64 rfl rfl).symm k) = (ix2 k j : S64x128.Idx) := funext fun a => Fin.ext (by
    match a with
    | ⟨0, _⟩ => exact (mm0_rhs_0 _ _).trans hk
    | ⟨1, _⟩ => exact mm0_rhs_1 _ _)
  rw [el, er]
  rfl

/-! ## The ten row tiles -/

variable (V : (c : Dev nD) → (b : Ref sig .tc) → Buf (Elt Ideal) ((c : Thread nD τ).loc b))

theorem reg0_hz : (![0, 0] : Fin 2 → Nat) = fun _ => 0 := funext fun a => by fin_cases a <;> rfl

/-- The windows' block indices over the ten tiles: the node features and the output move down one row tile per
    point, the weights stay whole. -/
theorem reg0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem reg0_tile_lt (t : Fin cfg0.N) : t.val < 10 := Nat.lt_of_lt_of_eq t.isLt N_0

/-- Row p of tile t is row 5000 t + p of the whole array. -/
def reg0_row (t : Fin cfg0.N) (p : Fin 5000) : Fin 50000 :=
  ⟨t.val * 5000 + p.val, by have := reg0_tile_lt t; have := p.isLt; omega⟩

/-- Tile t of the node features, read at (p, k), is the array at (5000 t + p, k). -/
theorem reg0_x_blk (c : Dev nD) (t : Fin cfg0.N) (p : Fin 5000) (k : Fin 64) :
    (iblk0 V c 0 t : Vec Ideal S5000x64 .f32) (ix2 p k)
      = (V c main_arg0 : S50000x64.Idx → Elt Ideal .f32) (ix2 (reg0_row t p) k) := by
  obtain ⟨e0, e1, -⟩ := reg0_idx_facts t
  unfold iblk0
  rw [View.read_apply]
  show V c main_arg0 _ = V c main_arg0 _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 64 + 1 * k.val = k.val; rw [e1]; omega

/-- The weights' one block is the whole array. -/
theorem reg0_w_blk (c : Dev nD) (t : Fin cfg0.N) (k : Fin 64) (q : Fin 128) :
    (iblk0 V c 1 t : Vec Ideal S64x128 .f32) (ix2 k q)
      = (V c main_arg3 : S64x128.Idx → Elt Ideal .f32) (ix2 k q) := by
  obtain ⟨-, -, e2, e3, -⟩ := reg0_idx_facts t
  unfold iblk0
  rw [View.read_apply]
  show V c main_arg3 _ = V c main_arg3 _
  congr 1
  funext a
  apply Fin.ext
  match a with
  | ⟨0, _⟩ => show win0_1.index t (0 : Fin 2) * 64 + 1 * k.val = k.val; rw [e2]; omega
  | ⟨1, _⟩ => show win0_1.index t (1 : Fin 2) * 128 + 1 * q.val = q.val; rw [e3]; omega

/-- Tile t of the output, at (p, q), sits in the array at (5000 t + p, q). -/
theorem reg0_out_emb (t : Fin cfg0.N) (p : Fin 5000) (q : Fin 128) :
    ((cfg0.win 2).blk t).view.emb (ix2 p q) = (ix2 (reg0_row t p) q : S50000x128.Idx) := by
  obtain ⟨-, -, -, -, e4, e5⟩ := reg0_idx_facts t
  funext a
  apply Fin.ext
  match a with
  | ⟨0, _⟩ => show win0_2.index t (0 : Fin 2) * 5000 + 1 * p.val = t.val * 5000 + p.val; rw [e4]; omega
  | ⟨1, _⟩ => show win0_2.index t (1 : Fin 2) * 128 + 1 * q.val = q.val; rw [e5]; omega

/-- What tile t writes back is tile t of x · W of the region-entry arrays: row p of the tile's product sums, over the
    64 features, row 5000 t + p of the node features against the weights' column. -/
theorem reg0_flushed_eq (c : Dev nD) (t : Fin cfg0.N) :
    (dat0 V c).flushed 2 t
      = ((cfg0.win 2).blk t).view.read (Elt Ideal) (Cert.Spec.mm (V c main_arg0) (V c main_arg3)) := by
  show (cfg0.win 2).cut (grid0.coords t) ((dat0 V c).after 2 t) = _
  rw [after0_2]
  unfold out0_2
  rw [View.canon_unit_zero reg0_hz]
  simp only [View.ld_unit_zero (S := S5000x64) reg0_hz, View.ld_unit_zero (S := S64x128) reg0_hz]
  funext y
  obtain ⟨p, q, rfl⟩ : ∃ (p : Fin 5000) (q : Fin 128), y = ix2 p q := ⟨y 0, y 1, eq_ix2 y⟩
  show k0_pay1 (F := Ideal) (iblk0 V c 0 t) (iblk0 V c 1 t) (ix2 p q)
    = Cert.Spec.mm (V c main_arg0) (V c main_arg3) (((cfg0.win 2).blk t).view.emb (ix2 p q))
  rw [reg0_out_emb t p q, Cert.Spec.mm_apply, pay0_apply]
  refine Finset.sum_congr rfl fun k _ => ?_
  rw [reg0_x_blk, reg0_w_blk]

/-! ## The tiles cover the array -/

/-- An index of the array is in tile t iff each coordinate is in the tile's range on its axis. -/
theorem reg0_mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row n lies in tile n / 5000. -/
theorem reg0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by rw [show cfg0.N = 10 from N_0]; omega⟩, rfl⟩
  obtain ⟨-, -, -, -, e4, e5⟩ := reg0_idx_facts t
  refine ⟨t, flush0_2 t, ?_⟩
  rw [reg0_mem_blk]
  intro a
  match a with
  | ⟨0, _⟩ =>
    show win0_2.index t (0 : Fin 2) * 5000 ≤ (i 0).val ∧ (i 0).val < win0_2.index t (0 : Fin 2) * 5000 + 5000
    rw [e4, ht]; omega
  | ⟨1, _⟩ =>
    show win0_2.index t (1 : Fin 2) * 128 ≤ (i 1).val ∧ (i 1).val < win0_2.index t (1 : Fin 2) * 128 + 128
    rw [e5]; omega

/-- After the first dense layer's ten row tiles the output array is x · W. -/
theorem reg0_val (c : Dev nD) :
    (dat0 (F := Ideal) V c).arrAt 2 cfg0.N = Cert.Spec.mm (V c main_arg0) (V c main_arg3) :=
  (dat0 V c).arrAt_eq_of_cover 2 (Cert.Spec.mm (V c main_arg0) (V c main_arg3))
    (fun t _ => reg0_flushed_eq V c t) reg0_cover

end Cert.KernelIdeal.Val

end
-- ==== Proof.Reg1.lean ====
import proofs.«410849_j86998857548340_1_alg».proof.Proof.Gen.KernelIdeal.Frame
import proofs.«410849_j86998857548340_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The tile's arithmetic, entry by entry -/

/-- The product's left operand index at output entry `i` and contraction index `q`: its row is the output's row. -/
theorem reg1_lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Its column is the contraction index. -/
theorem reg1_lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contraction index. -/
theorem reg1_rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Its column is the output's column. -/
theorem reg1_rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One row tile's result at row `r`, column `j`: the sum over `k` of max (x0 (r, k) + x1 k, 0) · x2 (k, j). Rounding the
    two factors to the shorter format changes nothing over the extended reals, and the product accumulates into zero. -/
theorem reg1_pay_apply (x0 : Vec Ideal S5000x128 .f32) (x1 : Vec Ideal S128 .f32) (x2 : Vec Ideal S128x128 .f32)
    (r : Fin 5000) (j : Fin 128) :
    k1_pay1 (F := Ideal) x0 x1 x2 (ix2 r j) = ∑ k : Fin 128, max (x0 (ix2 r k) + x1 (ix1 k)) 0 * x2 (ix2 k j) := by
  unfold k1_pay1
  refine (Ideal.matmul_constant_zero_apply dot_S5000x128_S128x128_S5000x128_1_0_0_1_n_n none _ _ (ix2 r j)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact reg1_lhs_axis0 _ _
    | ⟨1, _⟩ => exact (reg1_lhs_axis1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (reg1_rhs_axis0 _ _).trans hk
    | ⟨1, _⟩ => exact reg1_rhs_axis1 _ _)
  rw [el, er]
  rw [truncf_apply, truncf_apply, maximumf_apply, addf_apply, broadcast_apply, shapeCast_self,
    broadcastTo_1b_ab_apply, shapeCast_a_1a_apply, Ideal.ofBits_def, Ideal.ofBits_zero_f32]

/-! ## From the tiles to the array -/

theorem reg1_hz : (![0, 0] : Fin 2 → Nat) = fun _ => 0 := funext fun a => by fin_cases a <;> rfl
theorem reg1_hz' : (![0] : Fin 1 → Nat) = fun _ => 0 := funext fun a => by fin_cases a; rfl

/-- The windows' block indices at row tile `t`: the node-feature block and the output block are both block `t` of the
    rows, every other index is zero; there are ten tiles. -/
theorem reg1_idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 ∧ t.val < 10 :=
  (by decide +kernel : ∀ t : Fin grid1.N, _)

/-- Row `r` of the node-feature block at tile `t` is row 5000 t + r of the array. -/
theorem reg1_blkA (c : Dev nD) (t : Fin cfg1.N) (r : Fin 5000) (k : Fin 128) (n : Fin 50000) (hn : n.val = t.val * 5000 + r.val) :
    (iblk1 V c 0 t : Vec Ideal S5000x128 .f32) (ix2 r k) = (V c main_v43 : Vec Ideal S50000x128 .f32) (ix2 n k) := by
  obtain ⟨e0, e1, -⟩ := reg1_idx_facts t
  unfold iblk1
  rw [View.read_apply]
  show V c main_v43 _ = V c main_v43 _
  refine congrArg _ (funext fun a => Fin.ext ?_)
  match a with
  | ⟨0, _⟩ => show win1_0.index t (0 : Fin 2) * 5000 + 1 * r.val = n.val; rw [e0, hn]; omega
  | ⟨1, _⟩ => show win1_0.index t (1 : Fin 2) * 128 + 1 * k.val = k.val; rw [e1]; omega

/-- The bias block at every tile is the whole bias. -/
theorem reg1_blkB (c : Dev nD) (t : Fin cfg1.N) (k : Fin 128) :
    (iblk1 V c 1 t : Vec Ideal S128 .f32) (ix1 k) = (V c main_arg4 : Vec Ideal S128 .f32) (ix1 k) := by
  obtain ⟨-, -, e2, -⟩ := reg1_idx_facts t
  unfold iblk1
  rw [View.read_apply]
  show V c main_arg4 _ = V c main_arg4 _
  refine congrArg _ (funext fun a => Fin.ext ?_)
  match a with
  | ⟨0, _⟩ => show win1_1.index t (0 : Fin 1) * 128 + 1 * k.val = k.val; rw [e2]; omega

/-- The weight block at every tile is the whole weight matrix. -/
theorem reg1_blkW (c : Dev nD) (t : Fin cfg1.N) (k j : Fin 128) :
    (iblk1 V c 2 t : Vec Ideal S128x128 .f32) (ix2 k j) = (V c main_arg5 : Vec Ideal S128x128 .f32) (ix2 k j) := by
  obtain ⟨-, -, -, e3, e4, -⟩ := reg1_idx_facts t
  unfold iblk1
  rw [View.read_apply]
  show V c main_arg5 _ = V c main_arg5 _
  refine congrArg _ (funext fun a => Fin.ext ?_)
  match a with
  | ⟨0, _⟩ => show win1_2.index t (0 : Fin 2) * 128 + 1 * k.val = k.val; rw [e3]; omega
  | ⟨1, _⟩ => show win1_2.index t (1 : Fin 2) * 128 + 1 * j.val = j.val; rw [e4]; omega

/-- Row `r` of the output block at tile `t` is row 5000 t + r of the output array. -/
theorem reg1_embO (t : Fin cfg1.N) (r : Fin 5000) (j : Fin 128) (n : Fin 50000) (hn : n.val = t.val * 5000 + r.val) :
    ((cfg1.win 3).blk t).view.emb (ix2 r j) = (ix2 n j : S50000x128.Idx) := by
  obtain ⟨-, -, -, -, -, e5, e6, -⟩ := reg1_idx_facts t
  refine funext fun a => Fin.ext ?_
  match a with
  | ⟨0, _⟩ => show win1_3.index t (0 : Fin 2) * 5000 + 1 * r.val = n.val; rw [e5, hn]; omega
  | ⟨1, _⟩ => show win1_3.index t (1 : Fin 2) * 128 + 1 * j.val = j.val; rw [e6]; omega

/-- What tile `t` writes back is block `t` of the layer's whole result. -/
theorem reg1_flushed_eq (c : Dev nD) (t : Fin cfg1.N) :
    (dat1 (F := Ideal) V c).flushed 3 t
      = ((cfg1.win 3).blk t).view.read (Elt Ideal) (Cert.Spec.lyr (V c main_v43) (V c main_arg4) (V c main_arg5)) := by
  show (cfg1.win 3).cut (grid1.coords t) ((dat1 V c).after 3 t) = _
  rw [after1_3]
  unfold out1_3
  rw [View.canon_unit_zero reg1_hz]
  simp only [View.ld_unit_zero (S := S5000x128) reg1_hz, View.ld_unit_zero (S := S128) reg1_hz', View.ld_unit_zero (S := S128x128) reg1_hz]
  funext y
  obtain ⟨r, j, rfl⟩ : ∃ (r : Fin 5000) (j : Fin 128), y = ix2 r j := ⟨y 0, y 1, eq_ix2 y⟩
  have ht : t.val < 10 := (reg1_idx_facts t).2.2.2.2.2.2.2
  have hr : r.val < 5000 := r.isLt
  rw [View.read_apply, reg1_embO t r j ⟨t.val * 5000 + r.val, by omega⟩ rfl]
  refine (reg1_pay_apply (iblk1 V c 0 t) (iblk1 V c 1 t) (iblk1 V c 2 t) r j).trans ?_
  refine Eq.trans ?_ (Cert.Spec.lyr_apply (V c main_v43) (V c main_arg4) (V c main_arg5) ⟨t.val * 5000 + r.val, by omega⟩ j).symm
  refine Finset.sum_congr rfl fun k _ => ?_
  rw [reg1_blkA V c t r k ⟨t.val * 5000 + r.val, by omega⟩ rfl, reg1_blkB V c t k, reg1_blkW V c t k j]

/-- An entry of the output array is in tile `t`'s block iff each coordinate is in the block's range on its axis. -/
theorem reg1_mem_blk (t : Fin cfg1.N) (i : S50000x128.Idx) :
    i ∈ ((cfg1.win 3).blk t).view.set
      ↔ ∀ a : Fin 2, win1_3.index t a * S5000x128.size a ≤ (i a).val ∧ (i a).val < win1_3.index t a * S5000x128.size a + S5000x128.size a := by
  show i ∈ ((View.whole (Pipeline.arrRef spec1 3)).slice (win1_3.rect t)).set ↔ _
  rw [View.set_slice_whole, Rect.mem_set_unit]
  exact Iff.rfl

/-- Row `n` of the output array is written by tile `n / 5000`: the ten blocks of 5000 rows cover the 50000 rows. -/
theorem reg1_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : grid1.N = 10 := N_1
  have hlt : (i 0).val / 5000 < grid1.N := by rw [hN]; omega
  obtain ⟨-, -, -, -, -, e5, e6, -⟩ := reg1_idx_facts ⟨(i 0).val / 5000, hlt⟩
  refine ⟨⟨(i 0).val / 5000, hlt⟩, flush1_3 _, ?_⟩
  rw [reg1_mem_blk]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    rw [e5]
    show (i 0).val / 5000 * 5000 ≤ (i 0).val ∧ (i 0).val < (i 0).val / 5000 * 5000 + 5000
    omega
  | ⟨1, _⟩ =>
    show win1_3.index ⟨(i 0).val / 5000, hlt⟩ (1 : Fin 2) * 128 ≤ (i 1).val
      ∧ (i 1).val < win1_3.index ⟨(i 0).val / 5000, hlt⟩ (1 : Fin 2) * 128 + 128
    rw [e6]
    omega

/-- After the layer's ten row tiles the output array is max (A + b, 0) · W. -/
theorem reg1_val (c : Dev nD) :
    (dat1 (F := Ideal) V c).arrAt 3 cfg1.N = Cert.Spec.lyr (V c main_v43) (V c main_arg4) (V c main_arg5) :=
  (dat1 (F := Ideal) V c).arrAt_eq_of_cover 3 (Cert.Spec.lyr (V c main_v43) (V c main_arg4) (V c main_arg5))
    (fun t _ => reg1_flushed_eq V c t) reg1_cover

end Cert.KernelIdeal.Val

end
-- ==== Proof.LibTileSum.lean ====
/-
  A sum over the 50000 rows of an array taken tile by tile: ten tiles of 5000 consecutive rows.
-/
import Mathlib.Algebra.BigOperators.Fin
import Mathlib.Algebra.BigOperators.Group.Finset.Basic

namespace Cert.Lib.TileSum

/-- The sum over ten tiles of the sums over each tile's 5000 rows is the sum over all 50000 rows, row 5000 s + r
    being row r of tile s (stated for any commutative monoid, so in particular for the extended reals). -/
theorem sum_tiles_10_5000 {M : Type*} [AddCommMonoid M] (f : Fin 50000 → M) :
    ∑ s : Fin 10, ∑ r : Fin 5000, f ⟨5000 * s.val + r.val, by have := s.isLt; have := r.isLt; omega⟩ = ∑ n : Fin 50000, f n := by
  -- pair the tile s with the row r inside it, then read the pair (s, r) as the row 5000 s + r
  rw [← Fintype.sum_prod_type' (fun (s : Fin 10) (r : Fin 5000) =>
    f ⟨5000 * s.val + r.val, by have := s.isLt; have := r.isLt; omega⟩)]
  refine Fintype.sum_equiv (finProdFinEquiv.trans (finCongr (rfl : 10 * 5000 = 50000))) _ _ fun p => ?_
  exact congrArg f (Fin.ext (Nat.add_comm _ _))

end Cert.Lib.TileSum
-- ==== Proof.Reg4Pay.lean ====
import proofs.«410849_j86998857548340_1_alg».proof.Proof.Gen.KernelIdeal.Frame
import proofs.«410849_j86998857548340_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The pooling body's two payloads at an index -/

/-- The membership operand of the pooling product is read at the contracted node along its rows … -/
theorem pay4_lhs_0 (i : S16x128.Idx) (q : dot_S5000x16_S5000x128_S16x128_0_0_1_1_n_n.contr.Idx) :
    (dot_S5000x16_S5000x128_S16x128_0_0_1_1_n_n.lhsIdx i q 0).val = (q ⟨0, by decide⟩).val :=
  dot_S5000x16_S5000x128_S16x128_0_0_1_1_n_n.lhsIdx_val_of_single rfl i q
/-- … and at the output's graph along its columns. -/
theorem pay4_lhs_1 (i : S16x128.Idx) (q : dot_S5000x16_S5000x128_S16x128_0_0_1_1_n_n.contr.Idx) :
    (dot_S5000x16_S5000x128_S16x128_0_0_1_1_n_n.lhsIdx i q 1).val = (i 0).val := by
  unfold DotDims.lhsIdx
  rw [dif_neg (show ¬(1 : Fin S5000x16.rank) ∈ dot_S5000x16_S5000x128_S16x128_0_0_1_1_n_n.lhsBatch by decide), dif_pos (show (1 : Fin S5000x16.rank) ∈ dot_S5000x16_S5000x128_S16x128_0_0_1_1_n_n.lhsNonContracting by decide)]
  rfl
/-- The feature operand is read at the contracted node along its rows … -/
theorem pay4_rhs_0 (i : S16x128.Idx) (q : dot_S5000x16_S5000x128_S16x128_0_0_1_1_n_n.contr.Idx) :
    (dot_S5000x16_S5000x128_S16x128_0_0_1_1_n_n.rhsIdx i q 0).val = (q ⟨0, by decide⟩).val :=
  dot_S5000x16_S5000x128_S16x128_0_0_1_1_n_n.rhsIdx_val_of_single rfl i q
/-- … and at the output's feature along its columns. -/
theorem pay4_rhs_1 (i : S16x128.Idx) (q : dot_S5000x16_S5000x128_S16x128_0_0_1_1_n_n.contr.Idx) :
    (dot_S5000x16_S5000x128_S16x128_0_0_1_1_n_n.rhsIdx i q 1).val = (i 1).val := by
  unfold DotDims.rhsIdx
  rw [dif_neg (show ¬(1 : Fin S5000x128.rank) ∈ dot_S5000x16_S5000x128_S16x128_0_0_1_1_n_n.rhsBatch by decide), dif_pos (show (1 : Fin S5000x128.rank) ∈ dot_S5000x16_S5000x128_S16x128_0_0_1_1_n_n.rhsNonContracting by decide)]
  rfl

/-- One tile's pooling step at graph g and feature k: the reshapes keep the shape and the narrowing casts are the
    identity over the extended reals, so the step adds, onto what the accumulator block held, the sum over the tile's
    5000 nodes of the membership entry times the node's feature. -/
theorem pay4_apply (v3 : Vec Ideal S5000x16 .f32) (v6 : Vec Ideal S5000x128 .f32) (v10 : Vec Ideal S16x128 .f32) (g : Fin 16) (k : Fin 128) :
    k4_pay2 (F := Ideal) v3 v6 v10 (ix2 g k) = v10 (ix2 g k) + ∑ r : Fin 5000, v3 (ix2 r g) * v6 (ix2 r k) := by
  unfold k4_pay2
  simp only [shapeCast_self]
  refine (addf_apply (s := S16x128) (φ := .f32) _ _ (ix2 g k)).trans ?_
  congr 1
  refine (Ideal.matmul_constant_zero_apply dot_S5000x16_S5000x128_S16x128_0_0_1_1_n_n none _ _ (ix2 g k)).trans ?_
  rw [← Equiv.sum_comp (ValueIdx.contrEquiv1 dot_S5000x16_S5000x128_S16x128_0_0_1_1_n_n 5000 rfl rfl).symm]
  refine Finset.sum_congr rfl fun r _ => ?_
  have hr := ValueIdx.contrEquiv1_symm_val dot_S5000x16_S5000x128_S16x128_0_0_1_1_n_n 5000 rfl rfl r
  have el : dot_S5000x16_S5000x128_S16x128_0_0_1_1_n_n.lhsIdx (ix2 g k) ((ValueIdx.contrEquiv1 dot_S5000x16_S5000x128_S16x128_0_0_1_1_n_n 5000 rfl rfl).symm r) = (ix2 r g : S5000x16.Idx) := funext fun a => Fin.ext (by
    match a with
    | ⟨0, _⟩ => exact (pay4_lhs_0 _ _).trans hr
    | ⟨1, _⟩ => exact pay4_lhs_1 _ _)
  have er : dot_S5000x16_S5000x128_S16x128_0_0_1_1_n_n.rhsIdx (ix2 g k) ((ValueIdx.contrEquiv1 dot_S5000x16_S5000x128_S16x128_0_0_1_1_n_n 5000 rfl rfl).symm r) = (ix2 r k : S5000x128.Idx) := funext fun a => Fin.ext (by
    match a with
    | ⟨0, _⟩ => exact (pay4_rhs_0 _ _).trans hr
    | ⟨1, _⟩ => exact pay4_rhs_1 _ _)
  rw [el, er]
  rfl

/-- The first tile's reset: the accumulator block is filled with the zero word, which is 0 over the extended reals. -/
theorem pay4_zero (g : Fin 16) (k : Fin 128) : k4_pay1 (F := Ideal) (ix2 g k) = 0 := by
  unfold k4_pay1
  show Ideal.ofBits .f32 0x00000000#32 = 0
  exact Ideal.ofBits_zero_f32

end Cert.KernelIdeal.Val

end
-- ==== Proof.Reg4.lean ====
import proofs.«410849_j86998857548340_1_alg».proof.Proof.Gen.KernelIdeal.Frame
import proofs.«410849_j86998857548340_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«410849_j86998857548340_1_alg».proof.Proof.LibTileSum
import proofs.«410849_j86998857548340_1_alg».proof.Proof.Reg4Pay
set_option maxRecDepth 16384

/-
  Pooling, region 4: the node features h [50000, 128] are summed graph by graph with the membership table
  oh [50000, 16], ohᵀ · h [16, 128]. The grid runs over ten row tiles of 5000 rows. The output has ONE block, the whole
  [16, 128] array, which stays resident across the grid and is written back once, after the last tile. At the first
  tile the body resets the block to zero and adds the tile's product ohₜᵀ · hₜ; at each later tile it adds the tile's
  product to what the tile before left. So after tile t the block holds, at (g, k),
      ∑_{s ≤ t} ∑_{r < 5000} oh (5000 s + r, g) · h (5000 s + r, k)
  (induction on the tile), and after the last tile, with row n = 5000 s + r, the sum over all 50000 rows: entry (g, k)
  of ohᵀ · h. Over the extended reals only 0 + x = x and the re-indexing of a finite sum are used.
-/

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.Tactic

variable (V : (c : Dev nD) → (b : Ref sig .tc) → Buf (Elt Ideal) ((c : Thread nD τ).loc b))

namespace Pool

/-! ## What each control case leaves in the resident block -/

section Pieces
variable {F : FTy → Type} [FloatOps F]

/-- The zero offsets of a whole-block access. -/
theorem hz4 : (![0, 0] : Fin 2 → Nat) = fun _ => 0 := funext fun a => by
  match a with
  | ⟨0, _⟩ => rfl
  | ⟨1, _⟩ => rfl

/-- At a later row tile the body's one store covers the block: it leaves the block's earlier contents plus the
    tile's product. -/
theorem piece_B (c : Dev nD) (i : grid4.Coords) (a1 : Memref sig .tc .vmem S5000x16 .f32) (h1 : a1.IsWhole)
    (a2 : Memref sig .tc .vmem S5000x128 .f32) (h2 : a2.IsWhole) (a3 : Memref sig .tc .vmem S16x128 .f32) (h3 : a3.IsWhole)
    (hc : ¬cond4_0 i) (x0 : Vec F S5000x16 .f32) (x1 : Vec F S5000x128 .f32) (xo : Vec F S16x128 .f32) :
    out4_B_2 c i a1 h1 a2 h2 a3 h3 hc x0 x1 xo = k4_pay2 x0 x1 xo := by
  unfold out4_B_2
  rw [View.read_writes_eq_canon _ _ _ (cover4_B_2 c i a1 h1 a2 h2 a3 h3 hc x0 x1 xo)]
  unfold kernelRun4_B
  dsimp only
  sl_unfold_words
  rw [View.canon_unit_zero hz4]
  simp only [View.readAt_eq_ld, h1.read_unread, h2.read_unread, h3.read_unread, View.ld_unit_zero (S := S5000x16) hz4,
    View.ld_unit_zero (S := S5000x128) hz4, View.ld_unit_zero (S := S16x128) hz4]

/-- At the first row tile the body first stores the zero block, then reads it back and stores it plus the tile's
    product: the later store covers the block. -/
theorem piece_A (c : Dev nD) (i : grid4.Coords) (a1 : Memref sig .tc .vmem S5000x16 .f32) (h1 : a1.IsWhole)
    (a2 : Memref sig .tc .vmem S5000x128 .f32) (h2 : a2.IsWhole) (a3 : Memref sig .tc .vmem S16x128 .f32) (h3 : a3.IsWhole)
    (hc : cond4_0 i) (x0 : Vec F S5000x16 .f32) (x1 : Vec F S5000x128 .f32) :
    out4_A_2 c i a1 h1 a2 h2 a3 h3 hc x0 x1 = k4_pay2 x0 x1 (k4_pay1 (F := F)) := by
  unfold out4_A_2
  rw [View.read_writes_eq_canon _ _ _ (cover4_A_2 c i a1 h1 a2 h2 a3 h3 hc x0 x1)]
  unfold kernelRun4_A
  dsimp only
  sl_unfold_words
  rw [View.canon_cons_unit_zero (S := S16x128) hz4]
  simp only [View.readAt_eq_ld, h1.read_unread, h2.read_unread, View.ld_unit_zero (S := S5000x16) hz4,
    View.ld_unit_zero (S := S5000x128) hz4, View.readCov_unit_zero (S := S16x128) _ hz4]

end Pieces

/-! ## The arrays and blocks, named at their literal types -/

/-- The membership table oh [50000, 16] and the node features h [50000, 128] as the region finds them; their row
    tiles at a point; the resident block [16, 128] after the body at a point. -/
abbrev ohArr (c : Dev nD) : Vec Ideal S50000x16 .f32 := V c main_v95
abbrev hArr (c : Dev nD) : Vec Ideal S50000x128 .f32 := V c main_v88
abbrev ohBlk (c : Dev nD) (t : Fin cfg4.N) : Vec Ideal S5000x16 .f32 := iblk4 V c 0 t
abbrev hBlk (c : Dev nD) (t : Fin cfg4.N) : Vec Ideal S5000x128 .f32 := iblk4 V c 1 t
abbrev accBlk (c : Dev nD) (n : ℕ) (hn : n < cfg4.N) : Vec Ideal S16x128 .f32 := outsAt4 V c n hn

/-- The block indices over the grid: the two inputs' row-tile index is the point, their column index is 0; the
    output's block index is (0, 0) at every point. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Row r of row tile t is row 5000 t + r of the array. -/
def rowOf (t : Fin cfg4.N) (r : Fin 5000) : Fin 50000 :=
  ⟨5000 * t.val + r.val, by
    have hN : t.val < 10 := lt_of_lt_of_eq t.isLt (show cfg4.N = 10 from N_4)
    have := r.isLt
    omega⟩

/-- Row tile t of the membership table: entry (r, g) of the tile is entry (5000 t + r, g) of the table. -/
theorem ohBlk_apply (c : Dev nD) (t : Fin cfg4.N) (r : Fin 5000) (g : Fin 16) :
    ohBlk V c t (ix2 r g) = ohArr V c (ix2 (rowOf t r) g) := by
  obtain ⟨e0, e1, -, -, -, -⟩ := idx4 t
  show V c main_v95 (((cfg4.win 0).blk t).view.emb (ix2 r g)) = V c main_v95 (ix2 (rowOf t r) g)
  refine congrArg (V c main_v95) (funext fun a => Fin.ext ?_)
  match a with
  | ⟨0, _⟩ => show win4_0.index t (0 : Fin 2) * 5000 + 1 * r.val = 5000 * t.val + r.val; rw [e0]; omega
  | ⟨1, _⟩ => show win4_0.index t (1 : Fin 2) * 16 + 1 * g.val = g.val; rw [e1]; omega

/-- Row tile t of the node features: entry (r, k) of the tile is entry (5000 t + r, k) of the array. -/
theorem hBlk_apply (c : Dev nD) (t : Fin cfg4.N) (r : Fin 5000) (k : Fin 128) :
    hBlk V c t (ix2 r k) = hArr V c (ix2 (rowOf t r) k) := by
  obtain ⟨-, -, e0, e1, -, -⟩ := idx4 t
  show V c main_v88 (((cfg4.win 1).blk t).view.emb (ix2 r k)) = V c main_v88 (ix2 (rowOf t r) k)
  refine congrArg (V c main_v88) (funext fun a => Fin.ext ?_)
  match a with
  | ⟨0, _⟩ => show win4_1.index t (0 : Fin 2) * 5000 + 1 * r.val = 5000 * t.val + r.val; rw [e0]; omega
  | ⟨1, _⟩ => show win4_1.index t (1 : Fin 2) * 128 + 1 * k.val = k.val; rw [e1]; omega

/-! ## The resident block after each point: the sum over the row tiles so far -/

/-- Row tile t's share of entry (g, k) of ohᵀ · h: the sum over the tile's rows. -/
def tileSum (c : Dev nD) (t : Fin cfg4.N) (g : Fin 16) (k : Fin 128) : EReal :=
  ∑ r : Fin 5000, ohArr V c (ix2 (rowOf t r) g) * hArr V c (ix2 (rowOf t r) k)

/-- After point n the resident block holds, at (g, k), the shares of the row tiles 0 … n: the first point resets to
    zero and adds its share, each later point adds its share to what the point before left (induction on the point). -/
theorem accBlk_apply (c : Dev nD) (g : Fin 16) (k : Fin 128) : ∀ (n : ℕ) (hn : n < cfg4.N),
    accBlk V c n hn (ix2 g k) = ∑ s : Fin (n + 1), tileSum V c ⟨s.val, lt_of_lt_of_le s.isLt (Nat.succ_le_of_lt hn)⟩ g k
  | 0, hn => by
    show outsAt4 V c (⟨0, hn⟩ : Fin cfg4.N).val (⟨0, hn⟩ : Fin cfg4.N).isLt (ix2 g k) = _
    rw [outsAt4_A V c ⟨0, hn⟩ (Nat.zero_mod 10)]
    refine (congrFun (piece_A (F := Ideal) c (grid4.coords ⟨0, hn⟩) (ms4_0 ⟨0, hn⟩) (hs4_0 ⟨0, hn⟩) (ms4_1 ⟨0, hn⟩) (hs4_1 ⟨0, hn⟩)
      (ms4_2 ⟨0, hn⟩) (hs4_2 ⟨0, hn⟩) ((hcond4_0 ⟨0, hn⟩).mpr (Nat.zero_mod 10)) (ohBlk V c ⟨0, hn⟩) (hBlk V c ⟨0, hn⟩)) (ix2 g k)).trans ?_
    refine (pay4_apply (ohBlk V c ⟨0, hn⟩) (hBlk V c ⟨0, hn⟩) (k4_pay1 (F := Ideal)) g k).trans ?_
    rw [pay4_zero, zero_add, Fin.sum_univ_one]
    exact Finset.sum_congr rfl fun r _ => by rw [ohBlk_apply, hBlk_apply]; rfl
  | n + 1, hn => by
    have hN : cfg4.N = 10 := N_4
    have hB : ¬(⟨n + 1, hn⟩ : Fin cfg4.N).val % 10 = 0 := by dsimp only; omega
    show outsAt4 V c (⟨n + 1, hn⟩ : Fin cfg4.N).val (⟨n + 1, hn⟩ : Fin cfg4.N).isLt (ix2 g k) = _
    rw [outsAt4_B V c ⟨n + 1, hn⟩ hB]
    dsimp only
    refine (congrFun (piece_B (F := Ideal) c (grid4.coords ⟨n + 1, hn⟩) (ms4_0 ⟨n + 1, hn⟩) (hs4_0 ⟨n + 1, hn⟩) (ms4_1 ⟨n + 1, hn⟩) (hs4_1 ⟨n + 1, hn⟩)
      (ms4_2 ⟨n + 1, hn⟩) (hs4_2 ⟨n + 1, hn⟩) (fun h => hB ((hcond4_0 ⟨n + 1, hn⟩).mp h)) (ohBlk V c ⟨n + 1, hn⟩) (hBlk V c ⟨n + 1, hn⟩)
      (accBlk V c n (Nat.lt_of_succ_lt hn))) (ix2 g k)).trans ?_
    refine (pay4_apply (ohBlk V c ⟨n + 1, hn⟩) (hBlk V c ⟨n + 1, hn⟩) (accBlk V c n (Nat.lt_of_succ_lt hn)) g k).trans ?_
    refine Eq.trans ?_ (Fin.sum_univ_castSucc
      (fun s : Fin (n + 1 + 1) => tileSum V c ⟨s.val, lt_of_lt_of_le s.isLt (Nat.succ_le_of_lt hn)⟩ g k)).symm
    refine congrArg₂ (· + ·) (accBlk_apply c g k n (Nat.lt_of_succ_lt hn)) ?_
    exact Finset.sum_congr rfl fun r _ => by rw [ohBlk_apply, hBlk_apply]; rfl

/-- The ten row tiles' shares are the whole sum over the 50000 rows: row n is row n mod 5000 of tile n / 5000. -/
theorem sum_tiles (c : Dev nD) (g : Fin 16) (k : Fin 128) (h9 : 9 < cfg4.N) :
    ∑ s : Fin (9 + 1), tileSum V c ⟨s.val, lt_of_lt_of_le s.isLt (Nat.succ_le_of_lt h9)⟩ g k
      = ∑ n : Fin 50000, ohArr V c (ix2 n g) * hArr V c (ix2 n k) := by
  exact Cert.Lib.TileSum.sum_tiles_10_5000 (fun n : Fin 50000 => ohArr V c (ix2 n g) * hArr V c (ix2 n k))

/-! ## From the resident block to the array -/

/-- The output's one block is the whole [16, 128] array: read through it, an array is itself. -/
theorem read_blk2 (t : Fin cfg4.N) (G : FVec Ideal S16x128 .f32) (g : Fin 16) (k : Fin 128) :
    (((cfg4.win 2).blk t).view.read (Elt Ideal) G : Vec Ideal S16x128 .f32) (ix2 g k) = G (ix2 g k) := by
  obtain ⟨-, -, -, -, e0, e1⟩ := idx4 t
  show G (((cfg4.win 2).blk t).view.emb (ix2 g k)) = G (ix2 g k)
  refine congrArg G (funext fun a => Fin.ext ?_)
  match a with
  | ⟨0, _⟩ => show win4_2.index t (0 : Fin 2) * 16 + 1 * g.val = g.val; rw [e0]; omega
  | ⟨1, _⟩ => show win4_2.index t (1 : Fin 2) * 128 + 1 * k.val = k.val; rw [e1]; omega

/-- The one write-back, after the last point, writes ohᵀ · h. -/
theorem flushed_eq (c : Dev nD) (t : Fin cfg4.N) (hf : (cfg4.win 2).flush t = true) :
    (dat4 (F := Ideal) V c).flushed 2 t
      = ((cfg4.win 2).blk t).view.read (Elt Ideal) (Cert.Spec.pool (V c main_v95) (V c main_v88)) := by
  have hN : cfg4.N = 10 := N_4
  have h9 : t.val = 9 := by have := (flush4_2 t).mp hf; have := t.isLt; omega
  obtain ⟨n, hn⟩ := t
  dsimp only at h9
  subst h9
  show (cfg4.win 2).cut (grid4.coords ⟨9, hn⟩) ((dat4 V c).after 2 ⟨9, hn⟩) = _
  rw [after4_2]
  funext y
  obtain ⟨g, k, rfl⟩ : ∃ (g : Fin 16) (k : Fin 128), y = ix2 g k := ⟨y 0, y 1, eq_ix2 y⟩
  refine Eq.trans ?_ (read_blk2 ⟨9, hn⟩ (Cert.Spec.pool (V c main_v95) (V c main_v88)) g k).symm
  show accBlk V c 9 hn (ix2 g k) = _
  rw [accBlk_apply V c g k 9 hn, sum_tiles V c g k hn, Cert.Spec.pool_apply]

/-- An index of the array is in point t's block iff each coordinate is in the block's range on its axis. -/
theorem mem_blk2 (t : Fin cfg4.N) (i : S16x128.Idx) :
    i ∈ ((cfg4.win 2).blk t).view.set ↔ ∀ a : Fin 2, win4_2.index t a * S16x128.size a ≤ (i a).val ∧ (i a).val < win4_2.index t a * S16x128.size a + S16x128.size a := by
  show i ∈ ((View.whole main_v97).slice (win4_2.rect t)).set ↔ _
  rw [View.set_slice_whole, Rect.mem_set_unit]
  exact Iff.rfl

/-- The last point's block, the one written back, covers the array. -/
theorem cover2 (i : S16x128.Idx) : ∃ t : Fin cfg4.N, (cfg4.win 2).flush t = true ∧ i ∈ ((cfg4.win 2).blk t).view.set := by
  have h9 : 9 < cfg4.N := by rw [show cfg4.N = 10 from N_4]; decide
  refine ⟨⟨9, h9⟩, (flush4_2 ⟨9, h9⟩).mpr rfl, ?_⟩
  obtain ⟨-, -, -, -, e0, e1⟩ := idx4 ⟨9, h9⟩
  rw [mem_blk2]
  intro a
  have h0 : (i 0).val < 16 := (i 0).isLt
  have h1 : (i 1).val < 128 := (i 1).isLt
  match a with
  | ⟨0, _⟩ => show win4_2.index ⟨9, h9⟩ (0 : Fin 2) * 16 ≤ (i 0).val ∧ (i 0).val < win4_2.index ⟨9, h9⟩ (0 : Fin 2) * 16 + 16; rw [e0]; omega
  | ⟨1, _⟩ => show win4_2.index ⟨9, h9⟩ (1 : Fin 2) * 128 ≤ (i 1).val ∧ (i 1).val < win4_2.index ⟨9, h9⟩ (1 : Fin 2) * 128 + 128; rw [e1]; omega

end Pool

/-- After the ten row tiles, accumulated into one resident block, the output array is ohᵀ · h. -/
theorem reg4_val (c : Dev nD) :
    (dat4 (F := Ideal) V c).arrAt 2 cfg4.N = Cert.Spec.pool (V c main_v95) (V c main_v88) :=
  (dat4 (F := Ideal) V c).arrAt_eq_of_cover 2 (Cert.Spec.pool (V c main_v95) (V c main_v88))
    (fun t hf => Pool.flushed_eq V c t hf) Pool.cover2

end Cert.KernelIdeal.Val

end
-- ==== Proof.Reg5.lean ====
import proofs.«410849_j86998857548340_1_alg».proof.Proof.Gen.KernelIdeal.Frame
import proofs.«410849_j86998857548340_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

/-!
  The head of the network, region by itself: one grid point whose six windows each stage a whole array. The body
  computes max (p · U + u, 0) · Y + y from the pooled features p [16, 128], the weights U [128, 64] and Y [64, 2] and
  the biases u [64] and y [2]; over the extended reals the narrowing casts are the identity and each product into the
  zero accumulator is the plain sum over the contracted axis. The one point's block is the whole output array, so the
  array ends holding the specification's head of the region-entry arrays.
-/

/-! ## The head's two products at an index -/

/-- The pooled rows are read at the output's row … -/
theorem reg5_mm1_lhs_0 (i : S16x64.Idx) (q : dot_S16x128_S128x64_S16x64_1_0_0_1_n_n.contr.Idx) :
    (dot_S16x128_S128x64_S16x64_1_0_0_1_n_n.lhsIdx i q 0).val = (i 0).val := by
  unfold DotDims.lhsIdx
  rw [dif_neg (show ¬(0 : Fin S16x128.rank) ∈ dot_S16x128_S128x64_S16x64_1_0_0_1_n_n.lhsBatch by decide), dif_pos (show (0 : Fin S16x128.rank) ∈ dot_S16x128_S128x64_S16x64_1_0_0_1_n_n.lhsNonContracting by decide)]
  rfl
/-- … and at the contracted index along their columns. -/
theorem reg5_mm1_lhs_1 (i : S16x64.Idx) (q : dot_S16x128_S128x64_S16x64_1_0_0_1_n_n.contr.Idx) :
    (dot_S16x128_S128x64_S16x64_1_0_0_1_n_n.lhsIdx i q 1).val = (q ⟨0, by decide⟩).val :=
  dot_S16x128_S128x64_S16x64_1_0_0_1_n_n.lhsIdx_val_of_single rfl i q
/-- The first weight is read at the contracted index along its rows … -/
theorem reg5_mm1_rhs_0 (i : S16x64.Idx) (q : dot_S16x128_S128x64_S16x64_1_0_0_1_n_n.contr.Idx) :
    (dot_S16x128_S128x64_S16x64_1_0_0_1_n_n.rhsIdx i q 0).val = (q ⟨0, by decide⟩).val :=
  dot_S16x128_S128x64_S16x64_1_0_0_1_n_n.rhsIdx_val_of_single rfl i q
/-- … and at the output's column. -/
theorem reg5_mm1_rhs_1 (i : S16x64.Idx) (q : dot_S16x128_S128x64_S16x64_1_0_0_1_n_n.contr.Idx) :
    (dot_S16x128_S128x64_S16x64_1_0_0_1_n_n.rhsIdx i q 1).val = (i 1).val := by
  unfold DotDims.rhsIdx
  rw [dif_neg (show ¬(1 : Fin S128x64.rank) ∈ dot_S16x128_S128x64_S16x64_1_0_0_1_n_n.rhsBatch by decide), dif_pos (show (1 : Fin S128x64.rank) ∈ dot_S16x128_S128x64_S16x64_1_0_0_1_n_n.rhsNonContracting by decide)]
  rfl

/-- The hidden rows are read at the output's row … -/
theorem reg5_mm2_lhs_0 (i : S16x2.Idx) (q : dot_S16x64_S64x2_S16x2_1_0_0_1_n_n.contr.Idx) :
    (dot_S16x64_S64x2_S16x2_1_0_0_1_n_n.lhsIdx i q 0).val = (i 0).val := by
  unfold DotDims.lhsIdx
  rw [dif_neg (show ¬(0 : Fin S16x64.rank) ∈ dot_S16x64_S64x2_S16x2_1_0_0_1_n_n.lhsBatch by decide), dif_pos (show (0 : Fin S16x64.rank) ∈ dot_S16x64_S64x2_S16x2_1_0_0_1_n_n.lhsNonContracting by decide)]
  rfl
/-- … and at the contracted index along their columns. -/
theorem reg5_mm2_lhs_1 (i : S16x2.Idx) (q : dot_S16x64_S64x2_S16x2_1_0_0_1_n_n.contr.Idx) :
    (dot_S16x64_S64x2_S16x2_1_0_0_1_n_n.lhsIdx i q 1).val = (q ⟨0, by decide⟩).val :=
  dot_S16x64_S64x2_S16x2_1_0_0_1_n_n.lhsIdx_val_of_single rfl i q
/-- The second weight is read at the contracted index along its rows … -/
theorem reg5_mm2_rhs_0 (i : S16x2.Idx) (q : dot_S16x64_S64x2_S16x2_1_0_0_1_n_n.contr.Idx) :
    (dot_S16x64_S64x2_S16x2_1_0_0_1_n_n.rhsIdx i q 0).val = (q ⟨0, by decide⟩).val :=
  dot_S16x64_S64x2_S16x2_1_0_0_1_n_n.rhsIdx_val_of_single rfl i q
/-- … and at the output's column. -/
theorem reg5_mm2_rhs_1 (i : S16x2.Idx) (q : dot_S16x64_S64x2_S16x2_1_0_0_1_n_n.contr.Idx) :
    (dot_S16x64_S64x2_S16x2_1_0_0_1_n_n.rhsIdx i q 1).val = (i 1).val := by
  unfold DotDims.rhsIdx
  rw [dif_neg (show ¬(1 : Fin S64x2.rank) ∈ dot_S16x64_S64x2_S16x2_1_0_0_1_n_n.rhsBatch by decide), dif_pos (show (1 : Fin S64x2.rank) ∈ dot_S16x64_S64x2_S16x2_1_0_0_1_n_n.rhsNonContracting by decide)]
  rfl

/-- The first product into the zero accumulator, at graph g and hidden feature k: the sum over the 128 pooled features. -/
theorem reg5_mm1_apply {φ₁ φ₂ : FTy} (a : FVec Ideal S16x128 φ₁) (b : FVec Ideal S128x64 φ₂) (g : Fin 16) (k : Fin 64) :
    FloatOps.matmul dot_S16x128_S128x64_S16x64_1_0_0_1_n_n none a b (constant S16x64 .f32 0x00000000#32) (ix2 g k)
      = ∑ r : Fin 128, a (ix2 g r) * b (ix2 r k) := by
  refine (Ideal.matmul_constant_zero_apply dot_S16x128_S128x64_S16x64_1_0_0_1_n_n none _ _ (ix2 g k)).trans ?_
  rw [← Equiv.sum_comp (ValueIdx.contrEquiv1 dot_S16x128_S128x64_S16x64_1_0_0_1_n_n 128 rfl rfl).symm]
  refine Finset.sum_congr rfl fun r _ => ?_
  have hr := ValueIdx.contrEquiv1_symm_val dot_S16x128_S128x64_S16x64_1_0_0_1_n_n 128 rfl rfl r
  have el : dot_S16x128_S128x64_S16x64_1_0_0_1_n_n.lhsIdx (ix2 g k) ((ValueIdx.contrEquiv1 dot_S16x128_S128x64_S16x64_1_0_0_1_n_n 128 rfl rfl).symm r) = (ix2 g r : S16x128.Idx) := funext fun a => Fin.ext (by
    match a with
    | ⟨0, _⟩ => exact reg5_mm1_lhs_0 _ _
    | ⟨1, _⟩ => exact (reg5_mm1_lhs_1 _ _).trans hr)
  have er : dot_S16x128_S128x64_S16x64_1_0_0_1_n_n.rhsIdx (ix2 g k) ((ValueIdx.contrEquiv1 dot_S16x128_S128x64_S16x64_1_0_0_1_n_n 128 rfl rfl).symm r) = (ix2 r k : S128x64.Idx) := funext fun a => Fin.ext (by
    match a with
    | ⟨0, _⟩ => exact (reg5_mm1_rhs_0 _ _).trans hr
    | ⟨1, _⟩ => exact reg5_mm1_rhs_1 _ _)
  rw [el, er]

/-- The second product into the zero accumulator, at graph g and class q: the sum over the 64 hidden features. -/
theorem reg5_mm2_apply {φ₁ φ₂ : FTy} (a : FVec Ideal S16x64 φ₁) (b : FVec Ideal S64x2 φ₂) (g : Fin 16) (q : Fin 2) :
    FloatOps.matmul dot_S16x64_S64x2_S16x2_1_0_0_1_n_n none a b (constant S16x2 .f32 0x00000000#32) (ix2 g q)
      = ∑ k : Fin 64, a (ix2 g k) * b (ix2 k q) := by
  refine (Ideal.matmul_constant_zero_apply dot_S16x64_S64x2_S16x2_1_0_0_1_n_n none _ _ (ix2 g q)).trans ?_
  rw [← Equiv.sum_comp (ValueIdx.contrEquiv1 dot_S16x64_S64x2_S16x2_1_0_0_1_n_n 64 rfl rfl).symm]
  refine Finset.sum_congr rfl fun k _ => ?_
  have hk := ValueIdx.contrEquiv1_symm_val dot_S16x64_S64x2_S16x2_1_0_0_1_n_n 64 rfl rfl k
  have el : dot_S16x64_S64x2_S16x2_1_0_0_1_n_n.lhsIdx (ix2 g q) ((ValueIdx.contrEquiv1 dot_S16x64_S64x2_S16x2_1_0_0_1_n_n 64 rfl rfl).symm k) = (ix2 g k : S16x64.Idx) := funext fun a => Fin.ext (by
    match a with
    | ⟨0, _⟩ => exact reg5_mm2_lhs_0 _ _
    | ⟨1, _⟩ => exact (reg5_mm2_lhs_1 _ _).trans hk)
  have er : dot_S16x64_S64x2_S16x2_1_0_0_1_n_n.rhsIdx (ix2 g q) ((ValueIdx.contrEquiv1 dot_S16x64_S64x2_S16x2_1_0_0_1_n_n 64 rfl rfl).symm k) = (ix2 k q : S64x2.Idx) := funext fun a => Fin.ext (by
    match a with
    | ⟨0, _⟩ => exact (reg5_mm2_rhs_0 _ _).trans hk
    | ⟨1, _⟩ => exact reg5_mm2_rhs_1 _ _)
  rw [el, er]

/-- A bias [n] viewed [1, n] and repeated down m rows reads, at row g and column k, the bias at k. -/
theorem reg5_bias_row_apply {α : Type} {m n : Nat} (u : (⟨1, ![n]⟩ : Shape).Idx → α)
    (h : (⟨1, ![n]⟩ : Shape).ShapeCasts ⟨2, ![1, n]⟩) (h' : (⟨2, ![1, n]⟩ : Shape).Broadcasts ⟨2, ![m, n]⟩) (g : Fin m) (k : Fin n) :
    broadcastTo ⟨2, ![m, n]⟩ (shapeCast ⟨2, ![1, n]⟩ u h) h' (ix2 g k) = u (ix1 k) := by
  rw [broadcastTo_apply _ h' (ix2 g k) (ix2 (⟨0, Nat.one_pos⟩ : Fin 1) k) (fun a => by
    match a with
    | ⟨0, _⟩ => rfl
    | ⟨1, _⟩ =>
      show k.val = if n = 1 then 0 else k.val
      split
      · have := k.isLt; omega
      · rfl)]
  rw [shapeCast_addUnit_apply ![n] u h]
  congr 1
  funext a
  match a with
  | ⟨0, _⟩ => rfl

/-- The head's arithmetic at graph g and class q. -/
theorem reg5_pay_apply (p : FVec Ideal S16x128 .f32) (U : FVec Ideal S128x64 .f32) (u : FVec Ideal S64 .f32)
    (Y : FVec Ideal S64x2 .f32) (y : FVec Ideal S2 .f32) (g : Fin 16) (q : Fin 2) :
    k5_pay1 (F := Ideal) p U u Y y (ix2 g q)
      = (∑ k : Fin 64, max ((∑ r : Fin 128, p (ix2 g r) * U (ix2 r k)) + u (ix1 k)) 0 * Y (ix2 k q)) + y (ix1 q) := by
  unfold k5_pay1
  rw [addf_apply, reg5_bias_row_apply]
  refine congrArg (· + y (ix1 q)) ?_
  refine (reg5_mm2_apply _ _ g q).trans ?_
  refine Finset.sum_congr rfl fun k _ => ?_
  rw [truncf_apply, truncf_apply, maximumf_apply, addf_apply, reg5_bias_row_apply, broadcast_apply]
  have h0 : (FloatOps.ofBits FTy.f32 0x00000000#32 : Ideal .f32) = 0 := Ideal.ofBits_zero_f32
  rw [h0]
  refine congrArg (fun z => max (z + u (ix1 k)) 0 * Y (ix2 k q)) ?_
  refine (reg5_mm1_apply _ _ g k).trans ?_
  refine Finset.sum_congr rfl fun r _ => ?_
  rw [truncf_apply, truncf_apply, shapeCast_self]

/-- The head's arithmetic is the specification's head, as whole arrays. -/
theorem reg5_pay_eq (p : FVec Ideal S16x128 .f32) (U : FVec Ideal S128x64 .f32) (u : FVec Ideal S64 .f32)
    (Y : FVec Ideal S64x2 .f32) (y : FVec Ideal S2 .f32) :
    k5_pay1 (F := Ideal) p U u Y y = Cert.Spec.head p U u Y y := by
  funext i
  obtain ⟨g, q, rfl⟩ : ∃ (g : Fin 16) (q : Fin 2), i = ix2 g q := ⟨i 0, i 1, eq_ix2 i⟩
  rw [reg5_pay_apply, Cert.Spec.head_apply]

/-! ## The head's one point: every window stages its whole array -/

variable (V : (c : Dev nD) → (b : Ref sig .tc) → Buf (Elt Ideal) ((c : Thread nD τ).loc b))

theorem reg5_hz1 : (![0] : Fin 1 → Nat) = fun _ => 0 := funext fun a => by fin_cases a; rfl
theorem reg5_hz2 : (![0, 0] : Fin 2 → Nat) = fun _ => 0 := funext fun a => by fin_cases a <;> rfl

/-- At the one point every window's block index is zero on every axis: the block is the whole array. -/
theorem reg5_idx : ∀ t : Fin cfg5.N, (∀ a, win5_0.index t a = 0) ∧ (∀ a, win5_1.index t a = 0) ∧ (∀ a, win5_2.index t a = 0)
    ∧ (∀ a, win5_3.index t a = 0) ∧ (∀ a, win5_4.index t a = 0) ∧ (∀ a, win5_5.index t a = 0) :=
  (by decide +kernel : ∀ t : Fin grid5.N, _)

/-- The pooled features' block is the whole array p. -/
theorem reg5_blk0_eq (c : Dev nD) (t : Fin cfg5.N) : (iblk5 V c 0 t : Vec Ideal S16x128 .f32) = V c main_v102 := by
  have hz' : (fun a => win5_0.index t a * main_v102.ty.shape.size a) = fun _ => 0 :=
    funext fun a => by rw [(reg5_idx t).1 a, Nat.zero_mul]
  unfold iblk5
  exact Memref.read_access_unit_zero (Elt Ideal) main_v102 hz' (fun a => by rw [congrFun hz' a]; simp) (V c main_v102)

/-- The first weight's block is the whole array U. -/
theorem reg5_blk1_eq (c : Dev nD) (t : Fin cfg5.N) : (iblk5 V c 1 t : Vec Ideal S128x64 .f32) = V c main_arg11 := by
  have hz' : (fun a => win5_1.index t a * main_arg11.ty.shape.size a) = fun _ => 0 :=
    funext fun a => by rw [(reg5_idx t).2.1 a, Nat.zero_mul]
  unfold iblk5
  exact Memref.read_access_unit_zero (Elt Ideal) main_arg11 hz' (fun a => by rw [congrFun hz' a]; simp) (V c main_arg11)

/-- The first bias's block is the whole array u. -/
theorem reg5_blk2_eq (c : Dev nD) (t : Fin cfg5.N) : (iblk5 V c 2 t : Vec Ideal S64 .f32) = V c main_arg12 := by
  have hz' : (fun a => win5_2.index t a * main_arg12.ty.shape.size a) = fun _ => 0 :=
    funext fun a => by rw [(reg5_idx t).2.2.1 a, Nat.zero_mul]
  unfold iblk5
  exact Memref.read_access_unit_zero (Elt Ideal) main_arg12 hz' (fun a => by rw [congrFun hz' a]; simp) (V c main_arg12)

/-- The second weight's block is the whole array Y. -/
theorem reg5_blk3_eq (c : Dev nD) (t : Fin cfg5.N) : (iblk5 V c 3 t : Vec Ideal S64x2 .f32) = V c main_arg13 := by
  have hz' : (fun a => win5_3.index t a * main_arg13.ty.shape.size a) = fun _ => 0 :=
    funext fun a => by rw [(reg5_idx t).2.2.2.1 a, Nat.zero_mul]
  unfold iblk5
  exact Memref.read_access_unit_zero (Elt Ideal) main_arg13 hz' (fun a => by rw [congrFun hz' a]; simp) (V c main_arg13)

/-- The second bias's block is the whole array y. -/
theorem reg5_blk4_eq (c : Dev nD) (t : Fin cfg5.N) : (iblk5 V c 4 t : Vec Ideal S2 .f32) = V c main_arg14 := by
  have hz' : (fun a => win5_4.index t a * main_arg14.ty.shape.size a) = fun _ => 0 :=
    funext fun a => by rw [(reg5_idx t).2.2.2.2.1 a, Nat.zero_mul]
  unfold iblk5
  exact Memref.read_access_unit_zero (Elt Ideal) main_arg14 hz' (fun a => by rw [congrFun hz' a]; simp) (V c main_arg14)

/-- What the one point writes back is the whole of the head of the region-entry arrays. -/
theorem reg5_flushed_eq (c : Dev nD) (t : Fin cfg5.N) :
    (dat5 (F := Ideal) V c).flushed 5 t = ((cfg5.win 5).blk t).view.read (Elt Ideal)
      (Cert.Spec.head (V c main_v102) (V c main_arg11) (V c main_arg12) (V c main_arg13) (V c main_arg14)) := by
  show (cfg5.win 5).cut (grid5.coords t) ((dat5 V c).after 5 t) = _
  rw [after5_5]
  unfold out5_5
  rw [View.canon_unit_zero reg5_hz2]
  simp only [View.ld_unit_zero (S := S16x128) reg5_hz2, View.ld_unit_zero (S := S128x64) reg5_hz2, View.ld_unit_zero (S := S64) reg5_hz1,
    View.ld_unit_zero (S := S64x2) reg5_hz2, View.ld_unit_zero (S := S2) reg5_hz1]
  rw [reg5_blk0_eq, reg5_blk1_eq, reg5_blk2_eq, reg5_blk3_eq, reg5_blk4_eq, reg5_pay_eq]
  have hz' : (fun a => win5_5.index t a * main_v103.ty.shape.size a) = fun _ => 0 :=
    funext fun a => by rw [(reg5_idx t).2.2.2.2.2 a, Nat.zero_mul]
  exact (Memref.read_access_unit_zero (Elt Ideal) main_v103 hz' (fun a => by rw [congrFun hz' a]; simp) _).symm

/-- After the head's one point the output array is max (p · U + u, 0) · Y + y. -/
theorem reg5_val (c : Dev nD) :
    (dat5 (F := Ideal) V c).arrAt 5 cfg5.N = Cert.Spec.head (V c main_v102) (V c main_arg11) (V c main_arg12) (V c main_arg13) (V c main_arg14) :=
  (dat5 V c).arrAt_eq_of_cover 5 _ (fun t _ => reg5_flushed_eq V c t) fun i =>
    ⟨t5_0, flush5_5 t5_0, by
      show i ∈ ((View.whole main_v103).slice (win5_5.rect t5_0)).set
      rw [View.set_slice_whole, Rect.mem_set_unit]
      intro a
      have h0 : (i 0 : Nat) < 16 := (i 0).isLt
      have h1 : (i 1 : Nat) < 2 := (i 1).isLt
      match a with
      | ⟨0, _⟩ =>
        show win5_5.index t5_0 0 * win5_5.size 0 ≤ (i 0 : Nat) ∧ (i 0 : Nat) < win5_5.index t5_0 0 * win5_5.size 0 + win5_5.xsize (grid5.coords t5_0) 0
        rw [(reg5_idx t5_0).2.2.2.2.2 0, show win5_5.xsize (grid5.coords t5_0) 0 = 16 from rfl]; omega
      | ⟨1, _⟩ =>
        show win5_5.index t5_0 1 * win5_5.size 1 ≤ (i 1 : Nat) ∧ (i 1 : Nat) < win5_5.index t5_0 1 * win5_5.size 1 + win5_5.xsize (grid5.coords t5_0) 1
        rw [(reg5_idx t5_0).2.2.2.2.2 1, show win5_5.xsize (grid5.coords t5_0) 1 = 2 from rfl]; omega⟩

end Cert.KernelIdeal.Val

end
-- ==== Proof.RefForms.lean ====
import proofs.«410849_j86998857548340_1_alg».proof.Proof.RefRead
import proofs.«410849_j86998857548340_1_alg».proof.Proof.Spec
import Idealize.ShloMosaic.PureOps.Ideal.Laws

noncomputable section

namespace Cert.ReferenceIdeal.Forms

open Cert.ReferenceIdeal Cert.ReferenceIdeal.Gen Cert.ReferenceIdeal.ReadP
open Idealize.ShloMosaic Idealize.ShloMosaic.TcCoe Idealize.ShloMosaic.ValueIdx

/-! The reference's dense stages, each read index by index at the extended reals, are the layers of `Cert.Spec`. -/

/-- The first product is x · W. -/
theorem v30_eq (x0 : (⟨S50000x64, .f32⟩ : BufTy).Contents (Elt Ideal)) (x3 : (⟨S64x128, .f32⟩ : BufTy).Contents (Elt Ideal)) :
    val_main_v30 (F := Ideal) x0 x3 = Cert.Spec.mm x0 x3 := by
  funext i
  obtain ⟨n, j, rfl⟩ : ∃ (n : Fin 50000) (j : Fin 128), i = ix2 n j := ⟨i 0, i 1, eq_ix2 i⟩
  rw [Cert.Spec.mm_apply, val_main_v30_apply]
  refine Finset.sum_congr rfl fun k _ => ?_
  -- the product's operand indices are (n, k) and (k, j)
  have el : lidx_main_v30 (ix2 n j) k = ix2 n k :=
    funext fun a => Fin.ext (by match a with | ⟨0, _⟩ => rfl | ⟨1, _⟩ => rfl)
  have er : ridx_main_v30 (ix2 n j) k = ix2 k j :=
    funext fun a => Fin.ext (by match a with | ⟨0, _⟩ => rfl | ⟨1, _⟩ => rfl)
  rw [el, er]

/-- The second layer's product is max (A + b, 0) · W of the first layer's aggregate. -/
theorem v48_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) :
    val_main_v48 (F := Ideal) x0 x1 x3 x4 x5 = Cert.Spec.lyr (val_main_v43 (F := Ideal) x0 x1 x3) x4 x5 := by
  -- the aggregate stays a folded array A
  generalize hA : val_main_v43 (F := Ideal) x0 x1 x3 = A
  funext i
  obtain ⟨n, j, rfl⟩ : ∃ (n : Fin 50000) (j : Fin 128), i = ix2 n j := ⟨i 0, i 1, eq_ix2 i⟩
  rw [Cert.Spec.lyr_apply, val_main_v48_apply]
  refine Finset.sum_congr rfl fun k _ => ?_
  -- the product's operand indices are (n, k) and (k, j); the twice-broadcast bias is read at k
  have el : lidx_main_v48 (ix2 n j) k = ix2 n k :=
    funext fun a => Fin.ext (by match a with | ⟨0, _⟩ => rfl | ⟨1, _⟩ => rfl)
  have er : ridx_main_v48 (ix2 n j) k = ix2 k j :=
    funext fun a => Fin.ext (by match a with | ⟨0, _⟩ => rfl | ⟨1, _⟩ => rfl)
  have eb : idx_main_v44 (idx_main_v45 (ix2 n k)) = ix1 k :=
    funext fun a => Fin.ext (by match a with | ⟨0, _⟩ => rfl)
  rw [el, er, val_main_v47_apply, val_main_v46_apply, val_main_v45_apply, val_main_v44_apply,
    val_main_call1_v0_apply, val_main_call1_cst_apply, eb, hA]
  -- at the extended reals the sum, the maximum and the zero constant are the usual ones
  simp only [Ideal.addf_def, Ideal.maximumf_def, Ideal.ofBits_def, Ideal.ofBits_zero_f32]

/-- The third layer's product. -/
theorem v66_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v66 (F := Ideal) x0 x1 x3 x4 x5 x6 x7 = Cert.Spec.lyr (val_main_v61 (F := Ideal) x0 x1 x3 x4 x5) x6 x7 := by
  -- the aggregate stays a folded array A
  generalize hA : val_main_v61 (F := Ideal) x0 x1 x3 x4 x5 = A
  funext i
  obtain ⟨n, j, rfl⟩ : ∃ (n : Fin 50000) (j : Fin 128), i = ix2 n j := ⟨i 0, i 1, eq_ix2 i⟩
  rw [Cert.Spec.lyr_apply, val_main_v66_apply]
  refine Finset.sum_congr rfl fun k _ => ?_
  -- the product's operand indices are (n, k) and (k, j); the twice-broadcast bias is read at k
  have el : lidx_main_v66 (ix2 n j) k = ix2 n k :=
    funext fun a => Fin.ext (by match a with | ⟨0, _⟩ => rfl | ⟨1, _⟩ => rfl)
  have er : ridx_main_v66 (ix2 n j) k = ix2 k j :=
    funext fun a => Fin.ext (by match a with | ⟨0, _⟩ => rfl | ⟨1, _⟩ => rfl)
  have eb : idx_main_v62 (idx_main_v63 (ix2 n k)) = ix1 k :=
    funext fun a => Fin.ext (by match a with | ⟨0, _⟩ => rfl)
  rw [el, er, val_main_v65_apply, val_main_v64_apply, val_main_v63_apply, val_main_v62_apply,
    val_main_call2_v0_apply, val_main_call2_cst_apply, eb, hA]
  -- at the extended reals the sum, the maximum and the zero constant are the usual ones
  simp only [Ideal.addf_def, Ideal.maximumf_def, Ideal.ofBits_def, Ideal.ofBits_zero_f32]

/-- The fourth layer's product. -/
theorem v84_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v84 (F := Ideal) x0 x1 x3 x4 x5 x6 x7 x8 x9 = Cert.Spec.lyr (val_main_v79 (F := Ideal) x0 x1 x3 x4 x5 x6 x7) x8 x9 := by
  -- the aggregate stays a folded array A
  generalize hA : val_main_v79 (F := Ideal) x0 x1 x3 x4 x5 x6 x7 = A
  funext i
  obtain ⟨n, j, rfl⟩ : ∃ (n : Fin 50000) (j : Fin 128), i = ix2 n j := ⟨i 0, i 1, eq_ix2 i⟩
  rw [Cert.Spec.lyr_apply, val_main_v84_apply]
  refine Finset.sum_congr rfl fun k _ => ?_
  -- the product's operand indices are (n, k) and (k, j); the twice-broadcast bias is read at k
  have el : lidx_main_v84 (ix2 n j) k = ix2 n k :=
    funext fun a => Fin.ext (by match a with | ⟨0, _⟩ => rfl | ⟨1, _⟩ => rfl)
  have er : ridx_main_v84 (ix2 n j) k = ix2 k j :=
    funext fun a => Fin.ext (by match a with | ⟨0, _⟩ => rfl | ⟨1, _⟩ => rfl)
  have eb : idx_main_v80 (idx_main_v81 (ix2 n k)) = ix1 k :=
    funext fun a => Fin.ext (by match a with | ⟨0, _⟩ => rfl)
  rw [el, er, val_main_v83_apply, val_main_v82_apply, val_main_v81_apply, val_main_v80_apply,
    val_main_call3_v0_apply, val_main_call3_cst_apply, eb, hA]
  -- at the extended reals the sum, the maximum and the zero constant are the usual ones
  simp only [Ideal.addf_def, Ideal.maximumf_def, Ideal.ofBits_def, Ideal.ofBits_zero_f32]

/-- The head. -/
theorem v121_eq (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x64, .f32⟩ : BufTy).Contents (Elt Ideal)) (x12 : (⟨S64, .f32⟩ : BufTy).Contents (Elt Ideal)) (x13 : (⟨S64x2, .f32⟩ : BufTy).Contents (Elt Ideal)) (x14 : (⟨S2, .f32⟩ : BufTy).Contents (Elt Ideal)) :
    val_main_v121 (F := Ideal) x0 x1 x2 x3 x4 x5 x6 x7 x8 x9 x10 x11 x12 x13 x14 = Cert.Spec.head (val_main_v112 (F := Ideal) x0 x1 x2 x3 x4 x5 x6 x7 x8 x9 x10) x11 x12 x13 x14 := by
  -- the pooled means stay a folded array P
  generalize hP : val_main_v112 (F := Ideal) x0 x1 x2 x3 x4 x5 x6 x7 x8 x9 x10 = P
  funext i
  obtain ⟨g, q, rfl⟩ : ∃ (g : Fin 16) (q : Fin 2), i = ix2 g q := ⟨i 0, i 1, eq_ix2 i⟩
  -- the outer sum: the second product plus the twice-broadcast bias y, read at q
  have ey : idx_main_v119 (idx_main_v120 (ix2 g q)) = ix1 q :=
    funext fun a => Fin.ext (by match a with | ⟨0, _⟩ => rfl)
  rw [Cert.Spec.head_apply, val_main_v121_apply, val_main_v118_apply, val_main_v120_apply, val_main_v119_apply, ey,
    Ideal.addf_def]
  refine congrArg (· + x14 (ix1 q)) ?_
  refine Finset.sum_congr rfl fun k _ => ?_
  -- the second product's operand indices are (g, k) and (k, q); the bias u is read at k
  have el : lidx_main_v118 (ix2 g q) k = ix2 g k :=
    funext fun a => Fin.ext (by match a with | ⟨0, _⟩ => rfl | ⟨1, _⟩ => rfl)
  have er : ridx_main_v118 (ix2 g q) k = ix2 k q :=
    funext fun a => Fin.ext (by match a with | ⟨0, _⟩ => rfl | ⟨1, _⟩ => rfl)
  have eu : idx_main_v114 (idx_main_v115 (ix2 g k)) = ix1 k :=
    funext fun a => Fin.ext (by match a with | ⟨0, _⟩ => rfl)
  -- the first product, at (g, k), is the sum over r of P (g, r) · U (r, k)
  have hs : val_main_v113 (F := Ideal) x0 x1 x2 x3 x4 x5 x6 x7 x8 x9 x10 x11 (ix2 g k)
      = ∑ r : Fin 128, P (ix2 g r) * x11 (ix2 r k) := by
    rw [val_main_v113_apply, hP]
    refine Finset.sum_congr rfl fun r _ => ?_
    have el' : lidx_main_v113 (ix2 g k) r = ix2 g r :=
      funext fun a => Fin.ext (by match a with | ⟨0, _⟩ => rfl | ⟨1, _⟩ => rfl)
    have er' : ridx_main_v113 (ix2 g k) r = ix2 r k :=
      funext fun a => Fin.ext (by match a with | ⟨0, _⟩ => rfl | ⟨1, _⟩ => rfl)
    rw [el', er']
  rw [el, er, val_main_v117_apply, val_main_v116_apply, val_main_v115_apply, val_main_v114_apply,
    val_main_call4_v0_apply, val_main_call4_cst_apply, eu, hs]
  -- at the extended reals the sum, the maximum and the zero constant are the usual ones
  simp only [Ideal.addf_def, Ideal.maximumf_def, Ideal.ofBits_def, Ideal.ofBits_zero_f32]

end Cert.ReferenceIdeal.Forms

end
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.RefPool.lean ====
import proofs.«410849_j86998857548340_1_alg».proof.Proof.RefRead
import proofs.«410849_j86998857548340_1_alg».proof.Proof.Spec
import proofs.«410849_j86998857548340_1_alg».proof.Proof.LibRowOps
import Idealize.ShloMosaic.PureOps.Ideal.Laws

noncomputable section

namespace Cert.ReferenceIdeal.Pool

open Cert.ReferenceIdeal Cert.ReferenceIdeal.Gen Cert.ReferenceIdeal.ReadP
open Idealize.ShloMosaic Idealize.ShloMosaic.TcCoe Idealize.ShloMosaic.ValueIdx
open Cert.Lib.RowOps

/-! The reference's two segment sums over the graph ids are the products with the membership table: a row's graph id
    read as a signed integer equals g below 16 exactly when the 32-bit word is g, the table's entry is then 1 and
    otherwise 0, and on the extended reals 1 · x = x and 0 · x = 0 for every x. -/

/-- A 32-bit word read as a signed integer is g < 16 exactly when the word is g: g is below 2³¹, so the word g is
    non-negative and reads as itself, and a word reading as a non-negative integer below 2³¹ is that integer. -/
private theorem toInt_eq_iff (w : BitVec 32) (g : Fin 16) : w.toInt = (g.val : Int) ↔ w = BitVec.ofNat 32 g.val := by
  constructor
  · intro h
    apply BitVec.eq_of_toNat_eq
    rw [BitVec.toInt_eq_toNat_cond] at h
    rw [BitVec.toNat_ofNat]
    have := g.isLt
    have := w.isLt
    split_ifs at h <;> omega
  · rintro rfl
    rw [BitVec.toInt_eq_toNat_cond, BitVec.toNat_ofNat]
    have := g.isLt
    split_ifs <;> omega

/-- A choice on the signed reading of a word being g is the same choice on the word being g. -/
private theorem ite_toInt (w : BitVec 32) (g : Fin 16) (a b : EReal) :
    (if w.toInt = (g.val : Int) then a else b) = if w = BitVec.ofNat 32 g.val then a else b :=
  if_congr (toInt_eq_iff w g) rfl rfl

/-- Row n of the ids' column [50000, 1] is entry n of the ids (the counts' scatter). -/
private theorem idx103 (n : Fin 50000) : idx_main_v103 (ix2 n (0 : Fin 1)) = ix1 n := by
  funext a; match a with | ⟨0, _⟩ => rfl

/-- Row n of the ids' column [50000, 1] is entry n of the ids (the features' scatter). -/
private theorem idx106 (n : Fin 50000) : idx_main_v106 (ix2 n (0 : Fin 1)) = ix1 n := by
  funext a; match a with | ⟨0, _⟩ => rfl

/-- The pattern 0x3F800000 denotes 1: sign 0, biased exponent 127, zero fraction. -/
private theorem one_f32 : Ideal.ofBits .f32 0x3F800000#32 = 1 := by simp [Ideal.ofBits, Ideal.ieee, -EReal.coe_mul]; norm_num

/-- The per-graph node counts. -/
theorem v104_eq (x2 : (⟨S50000, .i32⟩ : BufTy).Contents (Elt Ideal)) :
    val_main_v104 (F := Ideal) x2 = Cert.Spec.cnt x2 := by
  funext i
  obtain ⟨g, rfl⟩ : ∃ g : Fin 16, i = ix1 g := ⟨i 0, eq_ix1 i⟩
  unfold val_main_v104
  -- the scatter of ones into zeros [16] along the ids' column: entry g is 0 plus one 1 for each node whose id reads g
  show Ideal.hostScatterAdd (scat1 16 50000 scatter_S16_S50000x1_S50000_n_0_0_1_wf) _ _ _ (ix1 g) = _
  rw [scat1_apply, Cert.Spec.cnt_apply, Finset.sum_filter]
  rw [val_main_v102_apply, val_main_cst_19_apply]
  show Ideal.ofBits .f32 0x00000000#32 + _ = _
  rw [Ideal.ofBits_zero_f32, zero_add]
  -- node by node: the update 1 where the id is g, else nothing, is the membership table's entry (n, g)
  refine Finset.sum_congr rfl fun n _ => ?_
  rw [val_main_v103_apply, val_main_v101_apply, val_main_cst_18_apply, Cert.Spec.oneHot_apply, idx103]
  show (if (x2 (ix1 n)).toInt = (g.val : Int) then Ideal.ofBits .f32 0x3F800000#32 else 0) = _
  rw [ite_toInt, one_f32]

/-- The per-graph feature sums. -/
theorem v107_eq (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v107 (F := Ideal) x0 x1 x2 x3 x4 x5 x6 x7 x8 x9 x10 = Cert.Spec.pool (Cert.Spec.oneHot x2) (val_main_v100 (F := Ideal) x0 x1 x3 x4 x5 x6 x7 x8 x9 x10) := by
  unfold val_main_v107
  -- the node features h [50000, 128] stay a name: only their rows are summed here
  generalize val_main_v100 (F := Ideal) x0 x1 x3 x4 x5 x6 x7 x8 x9 x10 = hh
  funext i
  obtain ⟨g, c, rfl⟩ : ∃ (g : Fin 16) (c : Fin 128), i = ix2 g c := ⟨i 0, i 1, eq_ix2 i⟩
  -- the scatter of h's rows into zeros [16, 128] along the ids' column: entry (g, c) is 0 plus h (n, c) for each node n whose id reads g
  show Ideal.hostScatterAdd (scat2 16 128 50000 scatter_S16x128_S50000x1_S50000x128_1_0_0_1_wf) _ _ _ (ix2 g c) = _
  rw [scat2_apply, Cert.Spec.pool_apply, Finset.sum_filter]
  rw [val_main_v105_apply, val_main_cst_20_apply]
  show Ideal.ofBits .f32 0x00000000#32 + _ = _
  rw [Ideal.ofBits_zero_f32, zero_add]
  -- node by node: h (n, c) where the id is g, else nothing, is the table's entry (n, g) times h (n, c), by 1 · x = x and 0 · x = 0
  refine Finset.sum_congr rfl fun n _ => ?_
  rw [val_main_v106_apply, Cert.Spec.oneHot_apply, idx106]
  show (if (x2 (ix1 n)).toInt = (g.val : Int) then hh (ix2 n c) else 0) = _
  rw [ite_toInt]
  split_ifs
  · rw [one_mul]
  · rw [zero_mul]

end Cert.ReferenceIdeal.Pool

end
-- ==== Proof.KForms.lean ====
import proofs.«410849_j86998857548340_1_alg».proof.Proof.Gen.KernelIdeal.Frame
import proofs.«410849_j86998857548340_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! The kernel program's membership table and node counts, as its host operations compute them, read index by index. -/

/-- The graph ids, made a column [50000, 1] and repeated along 16 columns, read at (n, g): the id of node n
    (the column's unit axis reads at 0, the row axis at n). -/
private theorem ids_apply (b : IVec S50000 32) (n : Fin 50000) (g : Fin 16) :
    broadcastInDim S50000x16 ![0, 1] bcast_S50000x1_S50000x16_0_1 (broadcastInDim S50000x1 ![0] bcast_S50000_S50000x1_0 b) (ix2 n g)
      = b (ix1 n) := by
  rw [broadcastInDim_apply _ bcast_S50000x1_S50000x16_0_1 _ (ix2 n g) (ix2 n (0 : Fin 1)) (fun a => match a with
    | ⟨0, _⟩ => by show n.val = if (50000 : Nat) = 1 then 0 else n.val; rw [if_neg (by decide)]
    | ⟨1, _⟩ => by show (0 : Nat) = if (1 : Nat) = 1 then 0 else g.val; rw [if_pos rfl])]
  exact broadcastInDim_apply _ bcast_S50000_S50000x1_0 b (ix2 n (0 : Fin 1)) (ix1 n) (fun a => match a with
    | ⟨0, _⟩ => by show n.val = if (50000 : Nat) = 1 then 0 else n.val; rw [if_neg (by decide)])

/-- The numbers 0 … 15, made a row [1, 16] and repeated along 50000 rows, read at (n, g): g as a 32-bit word
    (the row's unit axis reads at 0, the column axis at g). -/
private theorem iota_apply (n : Fin 50000) (g : Fin 16) :
    broadcastInDim S50000x16 ![0, 1] bcast_S1x16_S50000x16_0_1 (broadcastInDim S1x16 ![1] bcast_S16_S1x16_1 (iotaInDim S16 32 0)) (ix2 n g)
      = BitVec.ofNat 32 g.val := by
  rw [broadcastInDim_apply _ bcast_S1x16_S50000x16_0_1 _ (ix2 n g) (ix2 (0 : Fin 1) g) (fun a => match a with
    | ⟨0, _⟩ => by show (0 : Nat) = if (1 : Nat) = 1 then 0 else n.val; rw [if_pos rfl]
    | ⟨1, _⟩ => by show g.val = if (16 : Nat) = 1 then 0 else g.val; rw [if_neg (by decide)])]
  rw [broadcastInDim_apply _ bcast_S16_S1x16_1 _ (ix2 (0 : Fin 1) g) (ix1 g) (fun a => match a with
    | ⟨0, _⟩ => by show g.val = if (16 : Nat) = 1 then 0 else g.val; rw [if_neg (by decide)])]
  rfl

/-- The comparison of the broadcast graph ids with the broadcast 0 … 15, converted to a float, is the membership table. -/
theorem ohK_eq (b : IVec S50000 32) :
    (uitofp (F := Ideal) .f32 (cmpi .eq (broadcastInDim S50000x16 ![0, 1] bcast_S50000x1_S50000x16_0_1 (broadcastInDim S50000x1 ![0] bcast_S50000_S50000x1_0 b))
        (broadcastInDim S50000x16 ![0, 1] bcast_S1x16_S50000x16_0_1 (broadcastInDim S1x16 ![1] bcast_S16_S1x16_1 (iotaInDim S16 32 0)))) : FVec Ideal S50000x16 .f32)
      = Cert.Spec.oneHot b := by
  funext i
  obtain ⟨n, g, rfl⟩ : ∃ (n : Fin 50000) (g : Fin 16), i = ix2 n g := ⟨i 0, i 1, eq_ix2 i⟩
  -- entry (n, g): the unsigned reading, as a real, of the one-bit word that is 1 exactly when the two words at (n, g) are equal
  show FloatOps.uitofp (F := Ideal) .f32 (IntOp.cmpi .eq (broadcastInDim S50000x16 ![0, 1] bcast_S50000x1_S50000x16_0_1 (broadcastInDim S50000x1 ![0] bcast_S50000_S50000x1_0 b) (ix2 n g))
        (broadcastInDim S50000x16 ![0, 1] bcast_S1x16_S50000x16_0_1 (broadcastInDim S1x16 ![1] bcast_S16_S1x16_1 (iotaInDim S16 32 0)) (ix2 n g))) = _
  rw [ids_apply, iota_apply, Cert.Spec.oneHot_apply]
  show (((BitVec.ofBool (b (ix1 n) == BitVec.ofNat 32 g.val)).toNat : ℝ) : EReal) = _
  by_cases h : b (ix1 n) = BitVec.ofNat 32 g.val
  · -- equal words: the one-bit word 1 reads 1
    rw [if_pos h, beq_iff_eq.mpr h]
    show (((1 : Nat) : ℝ) : EReal) = 1
    simp
  · -- different words: the one-bit word 0 reads 0
    rw [if_neg h, beq_eq_false_iff_ne.mpr h]
    show (((0 : Nat) : ℝ) : EReal) = 0
    simp

/-- The table's column sums are the node counts. -/
theorem cntK_eq (b : IVec S50000 32) :
    (Host.reduceAdd (F := Ideal) (Cert.Spec.oneHot b) (constant S_ .f32 0x00000000#32) reducesTo_S50000x16_S16_d0 h_S_ : FVec Ideal S16 .f32)
      = Cert.Spec.cnt b := by
  funext i
  obtain ⟨g, rfl⟩ : ∃ g : Fin 16, i = ix1 g := ⟨i 0, eq_ix1 i⟩
  have hr : Shape.Reduces S50000x16 [0] S16 := by decide
  -- the sum over the row axis from the initial value 0: entry g is 0 plus the sum over n of the table at (n, g)
  show Ideal.hostReduceAdd reducesTo_S50000x16_S16_d0 (Cert.Spec.oneHot b) (Ideal.ofBits .f32 0x00000000#32) (ix1 g) = _
  rw [Ideal.hostReduceAdd_single reducesTo_S50000x16_S16_d0 hr, Ideal.ofBits_zero_f32, zero_add, Cert.Spec.cnt_apply]
  refine Finset.sum_congr rfl fun n _ => ?_
  -- the index g with the row coordinate n inserted is (n, g)
  refine congrArg _ ?_
  funext a
  match a with
  | ⟨0, _⟩ => rfl
  | ⟨1, _⟩ => rfl

end Cert.KernelIdeal.Val

end
-- ==== Proof.Chain.lean ====
/-
  The kernel program's result, boundary by boundary, is the reference's: at the entry of each region and after each
  host stretch the buffers the next segment reads hold the reference's stage of the same name — the edge lists and
  weights from the first host stretch, each dense layer's product from its region (ten row tiles of one matrix product),
  each neighbourhood aggregate from the same gather, scaling and scatter-add on both sides, the pooled sums from the
  accumulated product with the membership table, the head from its one point.
-/
import proofs.«410849_j86998857548340_1_alg».proof.Proof.Gen.KernelIdeal.Frame
import proofs.«410849_j86998857548340_1_alg».proof.Proof.RefRead
import proofs.«410849_j86998857548340_1_alg».proof.Proof.Keep
import proofs.«410849_j86998857548340_1_alg».proof.Proof.Reg0
import proofs.«410849_j86998857548340_1_alg».proof.Proof.Reg1
import proofs.«410849_j86998857548340_1_alg».proof.Proof.Reg2
import proofs.«410849_j86998857548340_1_alg».proof.Proof.Reg3
import proofs.«410849_j86998857548340_1_alg».proof.Proof.Reg4
import proofs.«410849_j86998857548340_1_alg».proof.Proof.Reg5
import proofs.«410849_j86998857548340_1_alg».proof.Proof.RefForms
import proofs.«410849_j86998857548340_1_alg».proof.Proof.RefPool
import proofs.«410849_j86998857548340_1_alg».proof.Proof.KForms
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v29 val_main_v30 val_main_v43 val_main_v48 val_main_v61
  val_main_v66 val_main_v79 val_main_v84 val_main_v100 val_main_v104 val_main_v107 val_main_v112 val_main_v121)

/-! ## The first host stretches: the edge lists and the edge weights (any float family) -/

section Edges
variable {F : FTy → Type} [FloatOps F]
variable (m : (ℓ : Loc nD τ sig) → Buf (Elt F) ℓ) (ρ : Dev nD → PrngReg)

/-- The edge sources with the self loops appended. -/
theorem src_eq (c : Dev nD) : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  after_results_simp
  rfl

/-- The edge targets with the self loops appended. -/
theorem dst_eq (c : Dev nD) : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  after_results_simp
  rfl

set_option maxHeartbeats 4000000 in
/-- The edge weights: the product of the inverse square roots of the two end points' degrees. -/
theorem norm_eq (c : Dev nD) : W3 m ρ c (Proc.devRef .tc main_v29) = val_main_v29 (F := F) (m ((c : Thread nD τ).loc main_arg1)) := by
  show StableHlo.after hostOps0_2 (StableHlo.after hostOps0_1 (StableHlo.after hostOps0 (W0 m ρ c))) (Proc.devRef .tc main_v29) = _
  after_results_simp
  rfl

end Edges

variable (m : (ℓ : Loc nD τ sig) → Buf (Elt Ideal) ℓ) (ρ : Dev nD → PrngReg)

/-! ## Layer 1 -/

/-- Region 0 leaves x · W1. -/
theorem hw1_eq (c : Dev nD) :
    W4 m ρ c (Proc.devRef .tc main_v30) = val_main_v30 (F := Ideal) (m ((c : Thread nD τ).loc main_arg0)) (m ((c : Thread nD τ).loc main_arg3)) := by
  rw [show W4 m ρ c (Proc.devRef .tc main_v30) = _ from W4_arr m ρ c 2, reg0_val (V3 m ρ) c,
    show V3 m ρ c main_arg0 = _ from W3_arg0 m ρ c, show V3 m ρ c main_arg3 = _ from W3_arg3 m ρ c]
  exact (Cert.ReferenceIdeal.Forms.v30_eq _ _).symm

set_option maxHeartbeats 4000000 in
/-- The first aggregate: rows gathered at the sources, scaled by the weights, added at the targets. -/
theorem agg1_eq (c : Dev nD) :
    W5 m ρ c (Proc.devRef .tc main_v43) = val_main_v43 (F := Ideal) (m ((c : Thread nD τ).loc main_arg0)) (m ((c : Thread nD τ).loc main_arg1)) (m ((c : Thread nD τ).loc main_arg3)) := by
  show StableHlo.after hostOps1 (W4 m ρ c) (Proc.devRef .tc main_v43) = _
  after_results_simp
  rw [W4_v3 m ρ c, W4_v6 m ρ c, W4_v29 m ρ c, src_eq m ρ c, dst_eq m ρ c, norm_eq m ρ c, hw1_eq m ρ c]
  rfl

/-! ## Layer 2 -/

/-- Region 1 leaves max (agg1 + b1, 0) · W2. -/
theorem hw2_eq (c : Dev nD) :
    W6 m ρ c (Proc.devRef .tc main_v44) = val_main_v48 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [show W6 m ρ c (Proc.devRef .tc main_v44) = _ from W6_arr m ρ c 3, reg1_val (V5 m ρ) c,
    show V5 m ρ c main_v43 = _ from agg1_eq m ρ c, show V5 m ρ c main_arg4 = _ from W5_arg4 m ρ c,
    show V5 m ρ c main_arg5 = _ from W5_arg5 m ρ c]
  exact (Cert.ReferenceIdeal.Forms.v48_eq _ _ _ _ _).symm

set_option maxHeartbeats 4000000 in
theorem agg2_eq (c : Dev nD) :
    W7 m ρ c (Proc.devRef .tc main_v57) = val_main_v61 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W6 m ρ c) (Proc.devRef .tc main_v57) = _
  after_results_simp
  rw [W6_v3 m ρ c, W6_v6 m ρ c, W6_v29 m ρ c, src_eq m ρ c, dst_eq m ρ c, norm_eq m ρ c, hw2_eq m ρ c]
  rfl

/-! ## Layer 3 -/

theorem hw3_eq (c : Dev nD) :
    W8 m ρ c (Proc.devRef .tc main_v58) = val_main_v66 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  rw [show W8 m ρ c (Proc.devRef .tc main_v58) = _ from W8_arr m ρ c 3, reg2_val (V7 m ρ) c,
    show V7 m ρ c main_v57 = _ from agg2_eq m ρ c, show V7 m ρ c main_arg6 = _ from W7_arg6 m ρ c,
    show V7 m ρ c main_arg7 = _ from W7_arg7 m ρ c]
  exact (Cert.ReferenceIdeal.Forms.v66_eq _ _ _ _ _ _ _).symm

set_option maxHeartbeats 4000000 in
theorem agg3_eq (c : Dev nD) :
    W9 m ρ c (Proc.devRef .tc main_v71) = val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W8 m ρ c) (Proc.devRef .tc main_v71) = _
  after_results_simp
  rw [W8_v3 m ρ c, W8_v6 m ρ c, W8_v29 m ρ c, src_eq m ρ c, dst_eq m ρ c, norm_eq m ρ c, hw3_eq m ρ c]
  rfl

/-! ## Layer 4 -/

theorem hw4_eq (c : Dev nD) :
    W10 m ρ c (Proc.devRef .tc main_v72) = val_main_v84 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [show W10 m ρ c (Proc.devRef .tc main_v72) = _ from W10_arr m ρ c 3, reg3_val (V9 m ρ) c,
    show V9 m ρ c main_v71 = _ from agg3_eq m ρ c, show V9 m ρ c main_arg8 = _ from W9_arg8 m ρ c,
    show V9 m ρ c main_arg9 = _ from W9_arg9 m ρ c]
  exact (Cert.ReferenceIdeal.Forms.v84_eq _ _ _ _ _ _ _ _ _).symm

set_option maxHeartbeats 4000000 in
/-- The last aggregate with its bias: the node features that are pooled. -/
theorem feat_eq (c : Dev nD) :
    W11 m ρ c (Proc.devRef .tc main_v88) = val_main_v100 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps4 (W10 m ρ c) (Proc.devRef .tc main_v88) = _
  after_results_simp
  rw [W10_v3 m ρ c, W10_v6 m ρ c, W10_v29 m ρ c, src_eq m ρ c, dst_eq m ρ c, norm_eq m ρ c, hw4_eq m ρ c, W10_arg10 m ρ c]
  rfl

/-! ## Pooling -/

set_option maxHeartbeats 4000000 in
/-- The membership table of the graph ids. -/
theorem table_eq (c : Dev nD) :
    W11 m ρ c (Proc.devRef .tc main_v95) = Cert.Spec.oneHot (m ((c : Thread nD τ).loc main_arg2)) := by
  show StableHlo.after hostOps4 (W10 m ρ c) (Proc.devRef .tc main_v95) = _
  after_results_simp
  rw [W10_arg2 m ρ c]
  exact ohK_eq _

set_option maxHeartbeats 4000000 in
/-- The node counts: the table's column sums are the reference's segment sum of ones. -/
theorem count_eq (c : Dev nD) :
    W11 m ρ c (Proc.devRef .tc main_v96) = val_main_v104 (F := Ideal) (m ((c : Thread nD τ).loc main_arg2)) := by
  show StableHlo.after hostOps4 (W10 m ρ c) (Proc.devRef .tc main_v96) = _
  after_results_simp
  rw [W10_arg2 m ρ c, ohK_eq, cntK_eq]
  exact (Cert.ReferenceIdeal.Pool.v104_eq _).symm

/-- Region 4 leaves the per-graph sums of the node features. -/
theorem pooled_eq (c : Dev nD) :
    W12 m ρ c (Proc.devRef .tc main_v97) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [show W12 m ρ c (Proc.devRef .tc main_v97) = _ from W12_arr m ρ c 2, reg4_val (V11 m ρ) c,
    show V11 m ρ c main_v95 = _ from table_eq m ρ c, show V11 m ρ c main_v88 = _ from feat_eq m ρ c]
  exact (Cert.ReferenceIdeal.Pool.v107_eq _ _ _ _ _ _ _ _ _ _ _).symm

set_option maxHeartbeats 4000000 in
/-- The per-graph means: the sums over the counts, at least one. -/
theorem mean_eq (c : Dev nD) :
    W13 m ρ c (Proc.devRef .tc main_v102) = val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps5 (W12 m ρ c) (Proc.devRef .tc main_v102) = _
  after_results_simp
  rw [pooled_eq m ρ c, W12_v96 m ρ c, count_eq m ρ c]
  rfl

/-! ## The head -/

/-- Region 5 leaves the head of the means: the program's result is the reference's. -/
theorem result_eq (c : Dev nD) :
    W14 m ρ c (Proc.devRef .tc main_v103) = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [show W14 m ρ c (Proc.devRef .tc main_v103) = _ from W14_arr m ρ c 5, reg5_val (V13 m ρ) c,
    show V13 m ρ c main_v102 = _ from mean_eq m ρ c, show V13 m ρ c main_arg11 = _ from W13_arg11 m ρ c,
    show V13 m ρ c main_arg12 = _ from W13_arg12 m ρ c, show V13 m ρ c main_arg13 = _ from W13_arg13 m ρ c,
    show V13 m ρ c main_arg14 = _ from W13_arg14 m ρ c]
  exact (Cert.ReferenceIdeal.Forms.v121_eq _ _ _ _ _ _ _ _ _ _ _ _ _ _ _).symm

end Cert.KernelIdeal.Val

end
-- ==== Proof.lean ====
/-
  The certificate of a four-layer graph convolution network with mean pooling and a two-layer head, on 50000 nodes
  and 850000 edges (the self loops included), in 16 graphs: the kernel program against its jnp reference over the
  extended reals.

  Both programs compute the edge lists and the symmetric edge weights with the same host operations, and each
  layer's neighbourhood aggregate (rows gathered at the edge sources, scaled by the weights, added at the targets)
  with the same host operations. They differ in three places. (1) Each dense layer max (h + b, 0) · W is a region of ten
  row tiles in the kernel program and one matrix product in the reference: a row of the product depends on that row
  of h only, so the tiles' products are the rows of the whole product. (2) The per-graph sums are the product
  ohᵀ · h with the membership table oh (1 where node n belongs to graph g, else 0), accumulated over ten row tiles
  from zero, in the kernel program and a segment sum in the reference: on the extended reals 1 · x = x and 0 · x = 0
  for every x, and a sum may be taken in any order and grouping; the node counts likewise. (3) The head is one
  region in the kernel program and two matrix products in the reference. A change of float format is the identity
  at the extended reals, so the kernel's narrowing before each product changes nothing. No law used needs finite
  values: the precondition is never opened.

  The frames of the two kernel programs are the generated ones; the reference's frame is its run with the result
  dropped; the ideal pass rewrote nothing, so `preserves` is trivial.
-/
import proofs.«410849_j86998857548340_1_alg».proof.Defs
import proofs.«410849_j86998857548340_1_alg».proof.Proof.Gen.Kernel
import proofs.«410849_j86998857548340_1_alg».proof.Proof.Gen.Kernel.Skeleton
import proofs.«410849_j86998857548340_1_alg».proof.Proof.Gen.Kernel.Launch
import proofs.«410849_j86998857548340_1_alg».proof.Proof.Gen.Kernel.Points
import proofs.«410849_j86998857548340_1_alg».proof.Proof.Gen.Kernel.Frame
import proofs.«410849_j86998857548340_1_alg».proof.Proof.Gen.KernelIdeal
import proofs.«410849_j86998857548340_1_alg».proof.Proof.Gen.KernelIdeal.Skeleton
import proofs.«410849_j86998857548340_1_alg».proof.Proof.Gen.KernelIdeal.Launch
import proofs.«410849_j86998857548340_1_alg».proof.Proof.Gen.KernelIdeal.Points
import proofs.«410849_j86998857548340_1_alg».proof.Proof.Gen.KernelIdeal.Frame
import proofs.«410849_j86998857548340_1_alg».proof.Proof.Gen.ReferenceIdeal
import proofs.«410849_j86998857548340_1_alg».proof.Proof.Gen.Pre_finite_inputs
import proofs.«410849_j86998857548340_1_alg».proof.Proof.RefRun
import proofs.«410849_j86998857548340_1_alg».proof.Proof.RefRead
import proofs.«410849_j86998857548340_1_alg».proof.Proof.KRun
import proofs.«410849_j86998857548340_1_alg».proof.Proof.Chain
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.ReadP.val_main_v121 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono (fun _ h c => ⟨(h c).1.trans (Cert.KernelIdeal.Val.result_eq m ρ c), (h c).2⟩)
      (Cert.KernelIdeal.Gen.run_val (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v121_eq]
    obtain ⟨h0, h1, h2, h3, h4, h5, h6, h7, h8, h9, h10, h11, h12, h13, h14⟩ := hagree c
    rw [h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
